-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S131072 : Shape := ⟨1, ![131072]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S4x2048x4096 .f32) (main_arg1 : IVec S4096x4096 32) (main_arg2 : FVec F S131072 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S131072 : Shape := ⟨1, ![131072]⟩
abbrev S8192x4096 : Shape := ⟨2, ![8192, 4096]⟩
abbrev S4096x32 : Shape := ⟨2, ![4096, 32]⟩
abbrev S256x4096 : Shape := ⟨2, ![256, 4096]⟩
abbrev S256x32 : Shape := ⟨2, ![256, 32]⟩
abbrev S256x32x128 : Shape := ⟨3, ![256, 32, 128]⟩
abbrev S256x32x1 : Shape := ⟨3, ![256, 32, 1]⟩
abbrev S1024x1024 : Shape := ⟨2, ![1024, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S131072, .f32⟩
  | .hbm, ⟨3, _⟩ => ⟨S8192x4096, .f32⟩
  | .hbm, ⟨4, _⟩ => ⟨S4096x32, .f32⟩
  | .hbm, ⟨5, _⟩ => ⟨S4096x4096, .bf16⟩
  | .hbm, ⟨6, _⟩ => ⟨S8192x4096, .f32⟩
  | .hbm, ⟨7, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x32, .f32⟩
  | .local _ .vmem, ⟨3, _⟩ => ⟨S256x32, .f32⟩
  | .local _ .vmem, ⟨4, _⟩ => ⟨S256x4096, .bf16⟩
  | .local _ .vmem, ⟨5, _⟩ => ⟨S256x4096, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x4096_S8192x4096 : S4x2048x4096.ShapeCasts S8192x4096
  shapeCasts_S131072_S4096x32 : S131072.ShapeCasts S4096x32
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S131072 : Shape := ⟨1, ![131072]⟩
abbrev S131072x128 : Shape := ⟨2, ![131072, 128]⟩
abbrev S131072x1 : Shape := ⟨2, ![131072, 1]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S131072, .f32⟩
  | .hbm, ⟨3, _⟩ => ⟨S4096x4096, .f32⟩
  | .hbm, ⟨4, _⟩ => ⟨S131072x128, .f32⟩
  | .hbm, ⟨5, _⟩ => ⟨S131072x1, .f32⟩
  | .hbm, ⟨6, _⟩ => ⟨S131072x128, .f32⟩
  | .hbm, ⟨7, _⟩ => ⟨S131072x128, .f32⟩
  | .hbm, ⟨8, _⟩ => ⟨S4096x4096, .f32⟩
  | .hbm, ⟨9, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S4096x4096_S131072x128 : S4096x4096.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Kernel.Dequant.lean ====
/-
  The first region: the weight's dequantisation, one tile of 256 rows at each of its 16 grid points.
  At a point the body reads its tile of the ternary matrix and its 256×32 tile of the scales and stores, whole,
  the tile of the weight: each entry the integer times the scale of its column group. Nothing is carried from one
  point to the next, so the region's invariant is the untouched rest.
-/
import proofs.«131810_j15058155339890_1_alg».proof.Proof.Gen.Kernel.Launch
import proofs.«131810_j15058155339890_1_alg».proof.Proof.Gen.Kernel.Skeleton
import proofs.«131810_j15058155339890_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s tile at point `t`: its block of the array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as found; after the body the two inputs' buffers hold their tiles and the
    output's the weight tile computed from them; the invariant is the untouched rest; nothing owed. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => k0_pay1 (tile0 V c 0 t) (tile0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) :
    (dat0 V c).after 2 t = k0_pay1 (tile0 V c 0 t) (tile0 V c 1 t) := by dsimp only [dat0]

/-! ## The inputs at a point -/

/-- Both offsets of a whole-tile access are zero. -/
private theorem zeros2 : (![0, 0] : Fin 2 → Nat) = fun _ => 0 := funext fun a => by fin_cases a <;> rfl

/-- The ternary matrix's current staging buffer holds its tile at every point: the tile is fetched there (or, had it
    not been, its index would not have moved), and the body leaves it in place. -/
theorem before0_0 (c : Dev nD) (t : Fin cfg0.N) (d) : (dat0 V c).before 0 t d = tile0 V c 0 t :=
  ((dat0 V c).before_in_eq_fetched 0 rfl (fun _ => rfl) (fun _ _ _ => rfl)
      (fun t => by rw [after0_0]; unfold Dat.blockOf tile0; rw [A_eq0]; try rfl) t d).trans
    (by unfold Dat.fetched Dat.blockOf tile0; rw [A_eq0]; try rfl)

/-- The scales' current staging buffer holds its tile at every point, likewise. -/
theorem before0_1 (c : Dev nD) (t : Fin cfg0.N) (d) : (dat0 V c).before 1 t d = tile0 V c 1 t :=
  ((dat0 V c).before_in_eq_fetched 1 rfl (fun _ => rfl) (fun _ _ _ => rfl)
      (fun t => by rw [after0_1]; unfold Dat.blockOf tile0; rw [A_eq0]; try rfl) t d).trans
    (by unfold Dat.fetched Dat.blockOf tile0; rw [A_eq0]; try rfl)

/-! ## The kernel on whole buffers -/

/-- The whole-tile access of the weight's buffer. -/
abbrev dequantStoreRect : Rect S256x4096 := Rect.unit (s := S256x4096) ![0, 0] S256x4096.size inb_S256x4096_S256x4096_0_0

/-- One store through the whole tile covers the buffer. -/
theorem dequantStore_covers (p : Vec F S256x4096 .bf16) (y : S256x4096.Idx) :
    ∃ pc ∈ ([⟨dequantStoreRect, p⟩] : List (View.Piece (Elt F) S256x4096 .bf16)), y ∈ pc.1.set :=
  View.cover_of_tiled [⟨dequantStoreRect, p⟩] S256x4096.size (by rfl) y

set_option maxHeartbeats 1000000 in
/-- On whole buffers, the integers' at `x0`, the scales' at `x1` and the weight's at anything, the kernel leaves the
    two inputs as they were and the weight's buffer at the scaled integers rounded to bf16: its one store is through
    the whole tile, so what it wrote is all that is read back. -/
theorem dequant_whole (c : Dev nD) (E : Set ℕ) (i : grid0.Coords)
    (a0 : Memref sig .tc .vmem S256x4096 .i32) (h0 : a0.IsWhole) (a1 : Memref sig .tc .vmem S256x32 .f32) (h1 : a1.IsWhole)
    (a2 : Memref sig .tc .vmem S256x4096 .bf16) (h2 : a2.IsWhole)
    (x0 : Vec F S256x4096 .i32) (x1 : Vec F S256x32 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (k0_pay1 x0 x1)) -∗ K ⟨⟩))
      ⊢ wp frame (wpE (defs₀ (F := F)) Variants.none c none) E (cc0__dequant_kernel i a0 h0 a1 h1 a2 h2) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (dequantStore_covers _),
    View.canon_unit_zero (S := S256x4096) zeros2 inb_S256x4096_S256x4096_0_0]
  simp only [View.readAt_eq_ld, View.ld_unit_zero (S := S256x4096) zeros2, View.ld_unit_zero (S := S256x32) zeros2]

/-! ## The body at a point -/

/-- What the body is handed at point `t`: the invariant, the core's debts, and each window's current staging buffer. -/
def atEntry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, each buffer at what the proof data say. -/
def atExit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their tiles, so the kernel's run on whole buffers applies with the tiles
    as the inputs; the invariant and the debts are not touched. -/
theorem dequant_point (c : Dev nD) (t : Fin cfg0.N) :
    atEntry0 V c t ⊢ wp frame (wpE (defs₀ (F := F)) Variants.none c none) Set.univ (bodyAt0 t) (fun _ => atExit0 V c t) := by
  unfold atEntry0 atExit0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (dequant_whole c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body does at every point what the proof data say. -/
theorem body0 (c : Dev nD) : BodyObligation (dat0 (F := F) V c) (defs₀ (F := F)) Variants.none () Set.univ := fun t => by
  rw [bigSep_W0, bigSep_W0]
  exact dequant_point V c t

end

end Cert.Kernel.Hand

end
-- ==== Proof.Kernel.Matmul.lean ====
/-
  The second region: x2 @ wᵀ tile by tile on the grid 8 × 4 × 4, the last axis the contraction's four stretches of
  1024 columns. Point t has last coordinate t mod 4. At every point the body adds the product of its two tiles to an
  accumulator kept in scratch memory; where the last coordinate is 0 it first sets the accumulator to zero, and where
  it is 3 it copies the accumulator to the output tile, which is written back only there. So the scratch after a
  point holds the partial sums since the last reset, and the region's invariant after a point is the scratch at
  exactly that, beside the rest of the scoped memory, which the body does not touch.
-/
import proofs.«131810_j15058155339890_1_alg».proof.Proof.Gen.Kernel.Launch
import proofs.«131810_j15058155339890_1_alg».proof.Proof.Gen.Kernel.Skeleton
import proofs.«131810_j15058155339890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s tile at point `t`: its block of the array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR after the point at position `n`: the product of that point's tiles added to zero where the
    stretch begins (n ≡ 0 mod 4), to what the point before left otherwise. -/
def accAt (c : Dev nD) : (n : ℕ) → n < cfg1.N → Vec F S1024x1024 .f32
  | 0, h => k1_pay2 (tile1 V c 0 ⟨0, h⟩) (tile1 V c 1 ⟨0, h⟩) (k1_pay1 (F := F))
  | n + 1, h =>
    if (n + 1) % 4 = 0 then k1_pay2 (tile1 V c 0 ⟨n + 1, h⟩) (tile1 V c 1 ⟨n + 1, h⟩) (k1_pay1 (F := F))
    else k1_pay2 (tile1 V c 0 ⟨n + 1, h⟩) (tile1 V c 1 ⟨n + 1, h⟩) (accAt c n (Nat.lt_of_succ_lt h))

/-- At the first point of a stretch the accumulator starts from zero. -/
theorem accAt_first (c : Dev nD) (t : Fin cfg1.N) (h : t.val % 4 = 0) :
    accAt V c t.val t.isLt = k1_pay2 (tile1 V c 0 t) (tile1 V c 1 t) (k1_pay1 (F := F)) := by
  obtain ⟨n, hn⟩ := t
  cases n with
  | zero => rfl
  | succ n => exact if_pos h

/-- At a later point of a stretch it goes on from what the point before left. -/
theorem accAt_next (c : Dev nD) (t : Fin cfg1.N) (h : t.val % 4 ≠ 0) :
    accAt V c t.val t.isLt
      = k1_pay2 (tile1 V c 0 t) (tile1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The scoped memory the second region's body never touches: the first region's six staging buffers, each at
    some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The scratch accumulator as a memref. -/
abbrev accRef : Memref sig .tc .vmem S1024x1024 .f32 := Memref.whole cc1_scratch0

/-- The region's invariant before position `n`: before the first point all the scoped rest at anything; afterwards
    the accumulator at what the point before left, the untouched scoped memory, the generator register. -/
def accInv (c : Dev nD) : (n : ℕ) → n ≤ cfg1.N → sProp 𝕄
  | 0, _ => Pipeline.ΦA spec1 c
  | n + 1, hn => iprop(owns (c : Thread nD τ) accRef fullShare (accAt V c n hn) ∗ otherScoped (F := F) c ∗ (∃ r, prngReg c r))

/-- The region's proof data: the arrays as found; after the body the inputs' buffers hold their tiles and the
    output's the accumulator (it is consulted only where the output is stored and written back, at the last point of
    each stretch); the invariant carries the accumulator; nothing owed. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => accAt V c t.val t.isLt
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = accAt V c t.val t.isLt := by dsimp only [dat1]

/-! ## Which branch a point takes, and where the output tile rests -/

/-- The body's first test: the last grid coordinate is 0 (the stretch begins, the accumulator is zeroed). -/
abbrev atStart (i : grid1.Coords) : Prop :=
  (Scalar.cmpi .ne (Scalar.extui (Scalar.cmpi .eq (BitVec.ofNat 32 (i 2).val) 0#32)) 0#32) = 1#1

/-- The body's second test: the last grid coordinate is 3 (the stretch ends, the accumulator is copied out). -/
abbrev atEnd (i : grid1.Coords) : Prop := k1_cond2 i = 1#1

/-- The last coordinate of point `t` is `t mod 4`, so the first test holds exactly where `t ≡ 0`, -/
theorem atStart_iff : ∀ t : Fin cfg1.N, atStart (grid1.coords t) ↔ t.val % 4 = 0 :=
  (by decide +kernel : ∀ t : Fin grid1.N, atStart (grid1.coords t) ↔ t.val % 4 = 0)

/-- and the second exactly where `t ≡ 3`. -/
theorem atEnd_iff : ∀ t : Fin cfg1.N, atEnd (grid1.coords t) ↔ t.val % 4 = 3 :=
  (by decide +kernel : ∀ t : Fin grid1.N, atEnd (grid1.coords t) ↔ t.val % 4 = 3)

/-- The two input windows are in use at every point. -/
theorem inUse1_0 : ∀ t : Fin cfg1.N, cfg1.idle 0 (grid1.coords t) = false := by decide +kernel
theorem inUse1_1 : ∀ t : Fin cfg1.N, cfg1.idle 1 (grid1.coords t) = false := by decide +kernel

/-- The output window rests at every point but the last of a stretch, -/
theorem rests1_2 : ∀ t : Fin cfg1.N, t.val % 4 ≠ 3 → cfg1.idle 2 (grid1.coords t) = true := by decide +kernel

/-- where it is in use; -/
theorem inUse1_2 : ∀ t : Fin cfg1.N, t.val % 4 = 3 → cfg1.idle 2 (grid1.coords t) = false := by decide +kernel

/-- and where it rests it is not written back. -/
theorem notBack1_2 (t : Fin cfg1.N) (h : t.val % 4 ≠ 3) : (cfg1.win 2).flush t = false := by
  cases hf : (cfg1.win 2).flush t with
  | false => rfl
  | true => exact absurd ((flush1_2 t).mp hf) h

/-! ## The body run once in each of its three cases

The kernel on any four whole memrefs: the two input tiles `x`, `w`, the output tile's buffer, the accumulator.
Every access is of a whole tile, at offsets zero. -/

/-- Every offset of the whole-tile accesses is zero. -/
private theorem zeroOffsets : (![0, 0] : Fin 2 → Nat) = fun _ => 0 := funext fun a => by fin_cases a <;> rfl

/-- After a store of the whole shape, whatever was stored before it, the buffer reads as that store's payload. -/
private theorem read_after_store {S : Shape} {e : EltTy} {κ : Kind} {sp : Space} {off : Fin S.rank → Nat} (h : off = fun _ => 0)
    (inb : ∀ a, off a + S.size a ≤ S.size a) (v : View sig κ sp S e) (f : v.ty.Contents (Elt F))
    (p : S.Idx → Elt F e) (L : List (View.Piece (Elt F) S e)) :
    v.read (Elt F) (v.writes (Elt F) f ((⟨Rect.unit off S.size inb, p⟩ : View.Piece (Elt F) S e) :: L)) = p := by
  subst h; funext y
  have e := View.read_writes_cons_emb (v := v) (f := f) (Rect.whole S) p L y
  rw [Rect.emb_whole_apply] at e
  exact e

/-- A load of the whole shape from a whole memref reads its contents. -/
private theorem load_whole {S : Shape} {e : EltTy} {κ : Kind} {sp : Space} {off : Fin S.rank → Nat} (h : off = fun _ => 0)
    (inb : ∀ a, off a + S.size a ≤ S.size a) (m : Memref sig κ sp S e) (hm : m.IsWhole) (X : S.Idx → Elt F e) :
    View.readAt (Elt F) m.view (Rect.unit off S.size inb).toLoadRect (hm.unread X) = X := by
  rw [View.readAt_eq_ld, hm.read_unread, View.ld_unit_zero h]

set_option maxHeartbeats 1000000 in
/-- Inside a stretch (last coordinate 1 or 2) neither branch is taken: the accumulator `a` becomes `a` plus the
    product of the tiles, and the output tile's buffer is left as found. -/
theorem run_inside (c : Dev nD) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (h0 : ¬atStart i) (h3 : ¬atEnd i)
    (x : Vec F S1024x1024 .f32) (w : Vec F S1024x1024 .bf16) (o a : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare o ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact h0 | exact h3)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_after_store zeroOffsets, load_whole zeroOffsets, load_whole zeroOffsets, load_whole zeroOffsets]

set_option maxHeartbeats 1000000 in
/-- Where a stretch begins (last coordinate 0) the first branch is taken: the accumulator, whatever it held, is set to
    zero and read back, and becomes zero plus the product of the tiles; the output tile's buffer is left as found. -/
theorem run_first (c : Dev nD) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (h0 : atStart i) (h3 : ¬atEnd i)
    (x : Vec F S1024x1024 .f32) (w : Vec F S1024x1024 .bf16) (o a : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare o ∗ owns (c : Thread nD τ) arg6 fullShare (k1_pay2 x w (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact h0 | exact h3)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [read_after_store zeroOffsets, View.readCov_unit_zero (S := S1024x1024) _ zeroOffsets, load_whole zeroOffsets,
    load_whole zeroOffsets]

set_option maxHeartbeats 1000000 in
/-- Where a stretch ends (last coordinate 3) the second branch is taken: the accumulator `a` becomes `a` plus the product
    of the tiles, is read back, and is stored whole into the output tile's buffer. -/
theorem run_last (c : Dev nD) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (h0 : ¬atStart i) (h3 : atEnd i)
    (x : Vec F S1024x1024 .f32) (w : Vec F S1024x1024 .bf16) (o a : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (k1_pay2 x w a) ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact h0 | exact h3)
  sl_step
  iapply Hk
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [read_after_store zeroOffsets, View.readCov_unit_zero (S := S1024x1024) _ zeroOffsets, load_whole zeroOffsets,
      load_whole zeroOffsets, load_whole zeroOffsets]
  iexists _; isplitr
  swap; · iexact H6
  ipureintro
  sl_unfold_words
  rw [read_after_store zeroOffsets, load_whole zeroOffsets, load_whole zeroOffsets, load_whole zeroOffsets]

/-! ## The invariant, opened -/

/-- After the point at position `n`: the accumulator at that point's sum. -/
theorem accInv_succ (c : Dev nD) (n : ℕ) (hn : n < cfg1.N) :
    accInv V c (n + 1) hn
      = iprop(owns (c : Thread nD τ) accRef fullShare (accAt V c n hn) ∗ otherScoped (F := F) c ∗ (∃ r, prngReg c r)) := rfl

/-- Before any point but the first: the accumulator at what the point before left. -/
theorem accInv_pos (c : Dev nD) (n : ℕ) (h : n ≤ cfg1.N) (hz : n ≠ 0) :
    accInv V c n h
      = iprop(owns (c : Thread nD τ) accRef fullShare (accAt V c (n - 1) (by omega)) ∗ otherScoped (F := F) c ∗ (∃ r, prngReg c r)) := by
  cases n with
  | zero => exact absurd rfl hz
  | succ n => rfl

/-- What the launch hands the region, the accumulator's buffer named as a memref: the six other buffers, the
    accumulator at anything, the generator register. -/
theorem scoped_open (c : Dev nD) :
    (Pipeline.ΦA spec1 c : sProp 𝕄)
      ⊢ iprop((∃ d, owns (c : Thread nD τ) accRef fullShare d) ∗ otherScoped (F := F) c ∗ (∃ r, prngReg c r)) := by
  unfold Pipeline.ΦA otherScoped; rw [scopedRest1_eq]; simp only [accRef, owns_whole]
  iintro ⟨⟨Ha, Hb, Hc, Hd, He, Hf, Hs⟩, Hr⟩
  isplitl [Hs]; · iexact Hs
  isplitr [Hr]
  · isplitl [Ha]; · iexact Ha
    isplitl [Hb]; · iexact Hb
    isplitl [Hc]; · iexact Hc
    isplitl [Hd]; · iexact Hd
    isplitl [He]; · iexact He
    iexact Hf
  iexact Hr

/-- And back. -/
theorem scoped_close (c : Dev nD) :
    iprop((∃ d, owns (c : Thread nD τ) accRef fullShare d) ∗ otherScoped (F := F) c ∗ (∃ r, prngReg c r))
      ⊢ (Pipeline.ΦA spec1 c : sProp 𝕄) := by
  unfold Pipeline.ΦA otherScoped; rw [scopedRest1_eq]; simp only [accRef, owns_whole]
  iintro ⟨Hs, ⟨Ha, Hb, Hc, Hd, He, Hf⟩, Hr⟩
  isplitr [Hr]
  · isplitl [Ha]; · iexact Ha
    isplitl [Hb]; · iexact Hb
    isplitl [Hc]; · iexact Hc
    isplitl [Hd]; · iexact Hd
    isplitl [He]; · iexact He
    isplitl [Hf]; · iexact Hf
    iexact Hs
  iexact Hr

/-- Before any point the invariant holds the accumulator at something, beside the rest: all a point needs that
    zeroes it first. -/
theorem accInv_forget (c : Dev nD) (n : ℕ) (h : n ≤ cfg1.N) :
    accInv V c n h
      ⊢ iprop((∃ d, owns (c : Thread nD τ) accRef fullShare d) ∗ otherScoped (F := F) c ∗ (∃ r, prngReg c r)) := by
  cases n with
  | zero => exact scoped_open c
  | succ n =>
    rw [accInv_succ]
    iintro ⟨Hs, Ho, Hr⟩
    isplitl [Hs]; · iexists _; iexact Hs
    isplitl [Ho]; · iexact Ho
    iexact Hr

/-! ## The buffers a point is handed, and what the inputs' hold -/

/-- The three windows' current staging memrefs at point `t`, as the pipeline passes them to the body. -/
abbrev xBuf (t : Fin cfg1.N) : Memref sig .tc .vmem S1024x1024 .f32 := win1_0.stage (cfg1.slots t 0)
abbrev xBuf_whole (t : Fin cfg1.N) : (xBuf t).IsWhole := hstage1_0 ((cfg1.slots t 0).cast nbuf1_0)
abbrev wBuf (t : Fin cfg1.N) : Memref sig .tc .vmem S1024x1024 .bf16 := win1_1.stage (cfg1.slots t 1)
abbrev wBuf_whole (t : Fin cfg1.N) : (wBuf t).IsWhole := hstage1_1 ((cfg1.slots t 1).cast nbuf1_1)
abbrev oBuf (t : Fin cfg1.N) : Memref sig .tc .vmem S1024x1024 .f32 := win1_2.stage (cfg1.slots t 2)
abbrev oBuf_whole (t : Fin cfg1.N) : (oBuf t).IsWhole := hstage1_2 ((cfg1.slots t 2).cast nbuf1_2)

/-- Each input's current buffer holds its tile at every point: the body leaves the tile in place and the window is
    always in use, so fetched there or not the buffer holds the block of the array. -/
theorem before1_0 (c : Dev nD) (t : Fin cfg1.N) (d) : (dat1 V c).before 0 t d = tile1 V c 0 t :=
  ((dat1 V c).before_in_eq_fetched 0 rfl (fun _ => rfl) (fun _ _ _ => rfl)
    (fun t => by rw [after1_0]; unfold Dat.blockOf tile1; rw [A_eq1]; try rfl) t d).trans
    (by unfold Dat.fetched Dat.blockOf tile1; rw [A_eq1]; try rfl)

theorem before1_1 (c : Dev nD) (t : Fin cfg1.N) (d) : (dat1 V c).before 1 t d = tile1 V c 1 t :=
  ((dat1 V c).before_in_eq_fetched 1 rfl (fun _ => rfl) (fun _ _ _ => rfl)
    (fun t => by rw [after1_1]; unfold Dat.blockOf tile1; rw [A_eq1]; try rfl) t d).trans
    (by unfold Dat.fetched Dat.blockOf tile1; rw [A_eq1]; try rfl)

/-! ## The body obligation at a point -/

/-- What the body is handed at point `t`: the invariant, the core's debt, the three windows' buffers, -/
def bodyPre1 (c : Dev nD) (t : Fin cfg1.N) : sProp 𝕄 :=
  iprop((dat1 V c).Φ t.castSucc ∗ (dat1 V c).owesAt () t.castSucc
    ∗ (∃ d, owns (c : Thread nD τ) (xBuf t) fullShare ((dat1 V c).before 0 t d))
    ∗ (∃ d, owns (c : Thread nD τ) (wBuf t) fullShare ((dat1 V c).before 1 t d))
    ∗ (∃ d, owns (c : Thread nD τ) (oBuf t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1600000 in
/-- The body at any point. The inputs' buffers hold their tiles; the point's position in its stretch says which of the
    three runs applies. At the start of a stretch the accumulator's earlier contents do not matter; elsewhere the
    invariant has it at what the point before left, and the run leaves it at this point's sum. The output tile's
    buffer is handed back as found except at the end of a stretch, where it takes the sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = accInv V c (t.val + 1) t.isLt from rfl, accInv_succ]
  rw [show (dat1 V c).Φ t.castSucc = accInv V c t.val (Nat.le_of_lt t.isLt) from rfl]
  rw [show (dat1 V c).leavesExact 0 t = owns (c : Thread nD τ) (xBuf t) fullShare (tile1 V c 0 t) from by
    unfold Dat.leavesExact; rw [inUse1_0 t, after1_0]]
  rw [show (dat1 V c).leavesExact 1 t = owns (c : Thread nD τ) (wBuf t) fullShare (tile1 V c 1 t) from by
    unfold Dat.leavesExact; rw [inUse1_1 t, after1_1]]
  have hN : t.val < 128 := lt_of_lt_of_eq t.isLt (show cfg1.N = 128 from N_1)
  by_cases h0 : t.val % 4 = 0
  · have h3 : t.val % 4 ≠ 3 := by omega
    rw [Dat.leavesExact_idle (dat1 V c) 2 t (rests1_2 t h3) (notBack1_2 t h3), accAt_first V c t h0]
    iintro ⟨HΦ, Ho, ⟨%d0, H0⟩, ⟨%d1, H1⟩, ⟨%d2, H2⟩⟩
    ihave HΦ' := (accInv_forget V c t.val (Nat.le_of_lt t.isLt)) $$ HΦ
    icases HΦ' with ⟨⟨%a, HS⟩, Hrest, Hg⟩
    iapply (run_first c (grid1.coords t) (xBuf t) (xBuf_whole t) (wBuf t) (wBuf_whole t) (oBuf t) (oBuf_whole t) accRef
      (Memref.isWhole_whole _) ((atStart_iff t).mpr h0) (fun h => h3 ((atEnd_iff t).mp h)) (tile1 V c 0 t) (tile1 V c 1 t)
      ((dat1 V c).before 2 t d2) a Set.univ _)
    isplitl [H0]; · iexact H0
    isplitl [H1]; · iexact H1
    isplitl [H2]; · iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexists _; iexact H2
  · have hz : t.val ≠ 0 := fun e => h0 (by rw [e])
    rw [accInv_pos V c _ _ hz, accAt_next V c t h0]
    by_cases h3 : t.val % 4 = 3
    · rw [show (dat1 V c).leavesExact 2 t = owns (c : Thread nD τ) (oBuf t) fullShare (accAt V c t.val t.isLt) from by
        unfold Dat.leavesExact; rw [inUse1_2 t h3, after1_2]]
      rw [accAt_next V c t h0]
      iintro ⟨⟨HS, Hrest, Hg⟩, Ho, ⟨%d0, H0⟩, ⟨%d1, H1⟩, ⟨%d2, H2⟩⟩
      iapply (run_last c (grid1.coords t) (xBuf t) (xBuf_whole t) (wBuf t) (wBuf_whole t) (oBuf t) (oBuf_whole t) accRef
        (Memref.isWhole_whole _) (fun h => h0 ((atStart_iff t).mp h)) ((atEnd_iff t).mpr h3) (tile1 V c 0 t) (tile1 V c 1 t)
        ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
    · rw [Dat.leavesExact_idle (dat1 V c) 2 t (rests1_2 t h3) (notBack1_2 t h3)]
      iintro ⟨⟨HS, Hrest, Hg⟩, Ho, ⟨%d0, H0⟩, ⟨%d1, H1⟩, ⟨%d2, H2⟩⟩
      iapply (run_inside c (grid1.coords t) (xBuf t) (xBuf_whole t) (wBuf t) (wBuf_whole t) (oBuf t) (oBuf_whole t) accRef
        (Memref.isWhole_whole _) (fun h => h0 ((atStart_iff t).mp h)) (fun h => h3 ((atEnd_iff t).mp h)) (tile1 V c 0 t)
        (tile1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexists _; iexact H2

/-- The body does at every point what the proof data say. -/
theorem body1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = accInv V c 0 (Nat.zero_le _) from rfl]
  exact Idealize.SL.BI.Entails.refl _

/-- After the last point the invariant gives the scoped rest back, the accumulator's contents forgotten. -/
theorem hout1 (c : Dev nD) : (dat1 V c).Φ (Fin.last cfg1.N) ⊢ (Pipeline.ΦA spec1 c : sProp 𝕄) := by
  rw [show (dat1 V c).Φ (Fin.last cfg1.N) = accInv V c (Fin.last cfg1.N).val (Nat.le_of_lt_succ (Fin.last cfg1.N).isLt) from rfl]
  exact (accInv_forget V c _ _).trans (scoped_close c)

end

end Cert.Kernel.Hand

end
-- ==== Proof.Kernel.Run.lean ====
/-
  The whole program as four items run in order: the two reshapes of the arguments, the dequantisation region, the
  product region, the reshape of the result. Between two items every unscoped buffer of the core is held whole at
  contents named here (`at0` … `at4`): an item's host operations applied to what was there, or a region's arrays at
  what its write-backs leave and everything else as it was. The run ends with every unscoped buffer at `at4`.
-/
import proofs.«131810_j15058155339890_1_alg».proof.Proof.Gen.Kernel.Launch
import proofs.«131810_j15058155339890_1_alg».proof.Proof.Gen.Kernel.Skeleton
import proofs.«131810_j15058155339890_1_alg».proof.Proof.Gen.Kernel.Points
import proofs.«131810_j15058155339890_1_alg».proof.Proof.Gen.Kernel.Regions
import proofs.«131810_j15058155339890_1_alg».proof.Proof.Kernel.Dequant
import proofs.«131810_j15058155339890_1_alg».proof.Proof.Kernel.Matmul
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev at0 : Dev nD → Valuation τ sig (Elt F) := fun c b => m (c, b)
/-- After the arguments' reshapes (the first region's entry). -/
abbrev at1 : Dev nD → Valuation τ sig (Elt F) := fun c => StableHlo.after hostOps0 (at0 m c)
/-- The same, read at the TensorCore's references. -/
abbrev in1 : (c : Dev nD) → (b : Ref sig .tc) → Buf (Elt F) ((c : Thread nD τ).loc b) := fun c b => at1 m c b
/-- After the dequantisation region: its arrays at what its write-backs leave, the rest as entered. -/
def at2 (c : Dev nD) : Valuation τ sig (Elt F) :=
  Pipeline.withArrays spec0 c (at1 m c) fun w => (dat0 (in1 m) c).arrAt w cfg0.N
/-- The same, read at the TensorCore's references (the second region's entry). -/
abbrev in2 : (c : Dev nD) → (b : Ref sig .tc) → Buf (Elt F) ((c : Thread nD τ).loc b) := fun c b => at2 m c b
/-- After the product region. -/
def at3 (c : Dev nD) : Valuation τ sig (Elt F) :=
  Pipeline.withArrays spec1 c (at2 m c) fun w => (dat1 (in2 m) c).arrAt w cfg1.N
/-- After the result's reshape: the end. -/
abbrev at4 : Dev nD → Valuation τ sig (Elt F) := fun c => StableHlo.after hostOps2 (at3 m c)

/-! ## Where a region ends: its arrays at what the write-backs leave, every other buffer untouched -/

/-- After the dequantisation each of its arrays holds what its write-backs leave, -/
theorem at2_arr (c : Dev nD) (w : Fin cfg0.W) :
    at2 m c (Proc.devRef .tc (Pipeline.arrRef spec0 w)) = (dat0 (in1 m) c).arrAt w cfg0.N := by
  unfold at2; exact Pipeline.withArrays_arr spec0 launch0.win.arr_inj c _ _ w
/-- and a buffer that is none of them what it held when the region was entered. -/
theorem at2_off (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
/-- After the product each of its arrays holds what its write-backs leave, -/
theorem at3_arr (c : Dev nD) (w : Fin cfg1.W) :
    at3 m c (Proc.devRef .tc (Pipeline.arrRef spec1 w)) = (dat1 (in2 m) c).arrAt w cfg1.N := by
  unfold at3; exact Pipeline.withArrays_arr spec1 launch1.win.arr_inj c _ _ w
/-- and a buffer that is none of them what the dequantisation left there. -/
theorem at3_off (c : Dev nD) (b : Ref sig .tc) (hb : ∀ w, Pipeline.arrRef spec1 w ≠ b) :
    at3 m c (Proc.devRef .tc b) = at2 m c (Proc.devRef .tc b) := by
  unfold at3; exact Pipeline.withArrays_of_ne spec1 c _ _ b hb

/-! ## The proof data of the two regions, and what a core keeps beside its buffers -/

/-- The dequantisation's proof data from the contents it is entered at, the product's from what the dequantisation
    left: written case by case, so that each region's configuration is the printed one. -/
def pdats : (p : Fin 2) → (c : Dev nD) → Dat τ (Elt F) Unit ℕ (UR sig nD τ) ℕ (Pipeline.pin (pcfgs (F := F)) adm p) c
  | ⟨0, _⟩ => fun c => dat0 (in1 m) c
  | ⟨1, _⟩ => fun c => dat1 (in2 m) c

/-- No core waits on another: no level is assigned anywhere. -/
abbrev noLevels : GSem nD τ sig → Finset Unit := fun _ => ∅
abbrev levelOf : GSem nD τ sig → Unit → ℕ := fun _ _ => 0

/-- Beside its buffers a core keeps, through all four items, its generator register at some state (a region takes it
    into its invariant and returns it) and the record that it owes nothing. -/
abbrev beside (c : Dev nD) : sProp 𝕄 :=
  iprop((∃ r, prngReg c r) ∗ ∃ W, owes (c : Thread nD τ) (0 : CellTallies nD τ sig Unit) W)

/-- A core between two items: every unscoped buffer whole at the given contents, and what it keeps beside them. -/
abbrev between (V : Dev nD → Valuation τ sig (Elt F)) (c : Dev nD) : sProp 𝕄 :=
  iprop(StableHlo.held (c : Thread nD τ) (Pipeline.ucRefs τ sig) (V c) ∗ beside (F := F) c)

/-- A line of reshapes as an item: it takes the unscoped buffers from the contents V to the reshapes applied to V. -/
abbrev reshapes (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UR sig nD τ) (pcfgs (F := F)) defs₀ Variants.none noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) V (beside (F := F))

/-! ## The two regions as items -/

set_option backward.isDefEq.respectTransparency.types false in
/-- THE DEQUANTISATION: entered with the unscoped buffers at at1, left with them at at2. Its three arrays are taken
    out of the unscoped buffers and put back at what the write-backs leave; the generator register goes into the
    invariant (with the scoped memory the region does not stage in) and comes back; the five other unscoped buffers go round. -/
def dequantItem : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (body0 (in1 m) c).loose
  hwaits := Pipeline.hwaits_of_owed_zero _ _ _ _ noLevels levelOf 0 fun _ _ => rfl
  pre := between (at1 m)
  post := between (at2 m)
  X c := iprop(∃ r, prngReg c r)
  Y c := iprop(∃ r, prngReg c r)
  Z c := Pipeline.unscopedRest (Ix := Unit) (Name := ℕ) (U := UR sig nD τ) (Lvl := ℕ) spec0 c (in1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in1 m c) fun _ => rfl
    rw [Pipeline.unscopedBufs_held] at hsplit
    iintro ⟨⟨Hbufs, Hreg, Howes⟩, -, -⟩
    ihave H := hsplit $$ Hbufs
    icases H with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in1 m c) (in2 m c) ((pdats m 0 c).arrAt · cfg0.N) (fun w => (at2_arr m c w).symm)
      (fun b hb => at2_off m c b fun w e => hb (Finset.mem_image.mpr ⟨w, Finset.mem_univ _, e⟩))
    rw [Pipeline.unscopedBufs_held] at hjoin
    iintro ⟨Harr, Howes, Hreg, Hothers⟩
    imodintro
    isplitl [Harr Hothers]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- THE PRODUCT: entered with the unscoped buffers at at2 (the weights where the dequantisation wrote them), left with
    them at at3. As for the dequantisation, except that its invariant carries the accumulator from point to point:
    what the launch hands it is the invariant before the first point, and after the last point the invariant gives the
    scoped memory back with the accumulator's contents forgotten. -/
def productItem : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (body1 (in2 m) c).loose
  hwaits := Pipeline.hwaits_of_owed_zero _ _ _ _ noLevels levelOf 1 fun _ _ => rfl
  pre := between (at2 m)
  post := between (at3 m)
  X c := iprop(∃ r, prngReg c r)
  Y c := iprop(∃ r, prngReg c r)
  Z c := Pipeline.unscopedRest (Ix := Unit) (Name := ℕ) (U := UR sig nD τ) (Lvl := ℕ) spec1 c (in2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in2 m c) fun _ => rfl
    rw [Pipeline.unscopedBufs_held] at hsplit
    iintro ⟨⟨Hbufs, Hreg, Howes⟩, -, -⟩
    ihave H := hsplit $$ Hbufs
    icases H with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    refine BIBase.Entails.trans ?_ (hin1 (in2 m) c)
    unfold Pipeline.ΦA
    iintro ⟨Hreg, -, Hscoped⟩
    isplitl [Hscoped]; · iexact Hscoped
    iexact Hreg
  hout c := by
    rw [Pipeline.ownSems0_none]
    refine (hout1 (in2 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in2 m c) (fun b => at3 m c b) ((pdats m 1 c).arrAt · cfg1.N) (fun w => (at3_arr m c w).symm)
      (fun b hb => at3_off m c b fun w e => hb (Finset.mem_image.mpr ⟨w, Finset.mem_univ _, e⟩))
    rw [Pipeline.unscopedBufs_held] at hjoin
    iintro ⟨Harr, Howes, Hreg, Hothers⟩
    imodintro
    isplitl [Harr Hothers]
    · iapply hjoin; isplitl [Harr] <;> iassumption
    isplitl [Hreg]; · iexact Hreg
    unfold Pipeline.Dat.owesAt Pipeline.owesWithin
    icases Howes with ⟨%W, -, Howes⟩; iexists W; iexact Howes

/-! ## The program as its four items, and the launch -/

/-- The arguments' reshapes, the dequantisation, the product, the result's reshape. -/
abbrev items : List (Pipeline.Seg (pcfgs (F := F)) adm (pdats m) () defs₀ Variants.none noLevels levelOf) :=
  [ .host (reshapes hostOps0 hostOps0_sub hostOps0_fresh (at0 m)),
    .region (dequantItem m),
    .region (productItem m),
    .host (reshapes hostOps2 hostOps2_sub hostOps2_fresh (at3 m)) ]

/-- The printed program is the four items run in order. -/
theorem main_items (c : Dev nD) : main (F := F) c = Pipeline.Seg.run (items m) := (main_chain c).trans (by chain_rfl)

/-- An unscoped reference of the TensorCore is among those a core holds between items. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- THE RUN: from any memory, with every counter at zero, every weakly fair execution of the program terminates,
    nothing faulting, and every unscoped buffer of every core ends at `at4`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = at4 m c b) :=
  Pipeline.θ_run_regions_kit (pcfgs (F := F)) adm (pdats m) () cellOf_inj emb₁ defs₀ Variants.none noLevels levelOf m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (at0 m))
    (Tₙ := fun c => iprop(StableHlo.held (c : Thread nD τ) (Pipeline.ucRefs τ sig) (at4 m c) ∗ ∃ r, prngReg c r))
    (hch := ⟨fun _ => .rfl, fun _ => .rfl, fun _ => .rfl, fun _ => .rfl, fun c => by
      show iprop(StableHlo.held (c : Thread nD τ) (Pipeline.ucRefs τ sig) (at4 m c) ∗ beside (F := F) c) ⊢ _
      iintro ⟨Hbufs, Hreg, Howes⟩
      isplitr [Howes]
      · isplitl [Hbufs]; · iexact Hbufs
        iexact Hreg
      iexact Howes⟩)
    (hinit := by
      refine Pipeline.initEach noLevels levelOf fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = at4 m c b)
    (hfin := fun c s' => by
      iintro ⟨⟨Hbufs, -⟩, HSI⟩
      unfold StableHlo.held
      imodintro
      iapply (pointsTo_read_all (Pipeline.ucRefs τ sig) (fun b => (((c : Thread nD τ)).1, b)) (at4 m c) s')
      isplitl [Hbufs] <;> iassumption)
    (hQ := fun _ h => h)

end Cert.Kernel.Hand

end
-- ==== Proof.Kernel.Ends.lean ====
/-
  What the program's last boundary holds. No item writes an argument: the host reshapes write their own results, the
  first region changes only the weight's array and the second only its product's, and a region's input arrays come
  out as they went in. So each argument ends as launched.
-/
import proofs.«131810_j15058155339890_1_alg».proof.Proof.Gen.Kernel.Launch
import proofs.«131810_j15058155339890_1_alg».proof.Proof.Gen.Kernel.Skeleton
import proofs.«131810_j15058155339890_1_alg».proof.Proof.Gen.Kernel.Points
import proofs.«131810_j15058155339890_1_alg».proof.Proof.Gen.Kernel.Regions
import proofs.«131810_j15058155339890_1_alg».proof.Proof.Kernel.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The activations end as launched. -/
theorem at4_arg0 (c : Dev nD) : at4 m c (Proc.devRef .tc main_arg0) = m ((c : Thread nD τ).loc main_arg0) :=
  (StableHlo.after_of_writes_sub hostOps2 _ hostOps2_writes (r := main_arg0) (by decide)).trans <|
    (at3_off m c main_arg0 (by decide)).trans <| (at2_off m c main_arg0 (by decide)).trans <|
      (StableHlo.after_of_writes_sub hostOps0 _ hostOps0_writes (r := main_arg0) (by decide)).trans rfl

/-- The ternary matrix ends as launched: the first region reads it through an input window. -/
theorem at4_arg1 (c : Dev nD) : at4 m c (Proc.devRef .tc main_arg1) = m ((c : Thread nD τ).loc main_arg1) :=
  (StableHlo.after_of_writes_sub hostOps2 _ hostOps2_writes (r := main_arg1) (by decide)).trans <|
    (at3_off m c main_arg1 (by decide)).trans <| (at2_arr m c 0).trans <|
      ((dat0 (in1 m) c).arrAt_in 0 rfl _).trans <| (A_eq0 (in1 m) c 0).trans <|
        (StableHlo.after_of_writes_sub hostOps0 _ hostOps0_writes (r := main_arg1) (by decide)).trans rfl

/-- The scales end as launched. -/
theorem at4_arg2 (c : Dev nD) : at4 m c (Proc.devRef .tc main_arg2) = m ((c : Thread nD τ).loc main_arg2) :=
  (StableHlo.after_of_writes_sub hostOps2 _ hostOps2_writes (r := main_arg2) (by decide)).trans <|
    (at3_off m c main_arg2 (by decide)).trans <| (at2_off m c main_arg2 (by decide)).trans <|
      (StableHlo.after_of_writes_sub hostOps0 _ hostOps0_writes (r := main_arg2) (by decide)).trans rfl

/-- THE FRAME: the program terminates, nothing faulting, with its three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_arg0 (by decide))).trans (at4_arg0 m c),
     (h c _ (mem_ucRefs main_arg1 (by decide))).trans (at4_arg1 m c),
     (h c _ (mem_ucRefs main_arg2 (by decide))).trans (at4_arg2 m c)⟩) (run m ρ)

end Cert.Kernel.Hand

end
-- ==== Proof.KernelIdeal.Dequant.lean ====
/-
  The first region: the weight's dequantisation, one tile of 256 rows at each of its 16 grid points.
  At a point the body reads its tile of the ternary matrix and its 256×32 tile of the scales and stores, whole,
  the tile of the weight: each entry the integer times the scale of its column group. Nothing is carried from one
  point to the next, so the region's invariant is the untouched rest.
-/
import proofs.«131810_j15058155339890_1_alg».proof.Proof.Gen.KernelIdeal.Launch
import proofs.«131810_j15058155339890_1_alg».proof.Proof.Gen.KernelIdeal.Skeleton
import proofs.«131810_j15058155339890_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s tile at point `t`: its block of the array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as found; after the body the two inputs' buffers hold their tiles and the
    output's the weight tile computed from them; the invariant is the untouched rest; nothing owed. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => k0_pay1 (tile0 V c 0 t) (tile0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) :
    (dat0 V c).after 2 t = k0_pay1 (tile0 V c 0 t) (tile0 V c 1 t) := by dsimp only [dat0]

/-! ## The inputs at a point -/

/-- Both offsets of a whole-tile access are zero. -/
private theorem zeros2 : (![0, 0] : Fin 2 → Nat) = fun _ => 0 := funext fun a => by fin_cases a <;> rfl

/-- The ternary matrix's current staging buffer holds its tile at every point: the tile is fetched there (or, had it
    not been, its index would not have moved), and the body leaves it in place. -/
theorem before0_0 (c : Dev nD) (t : Fin cfg0.N) (d) : (dat0 V c).before 0 t d = tile0 V c 0 t :=
  ((dat0 V c).before_in_eq_fetched 0 rfl (fun _ => rfl) (fun _ _ _ => rfl)
      (fun t => by rw [after0_0]; unfold Dat.blockOf tile0; rw [A_eq0]; try rfl) t d).trans
    (by unfold Dat.fetched Dat.blockOf tile0; rw [A_eq0]; try rfl)

/-- The scales' current staging buffer holds its tile at every point, likewise. -/
theorem before0_1 (c : Dev nD) (t : Fin cfg0.N) (d) : (dat0 V c).before 1 t d = tile0 V c 1 t :=
  ((dat0 V c).before_in_eq_fetched 1 rfl (fun _ => rfl) (fun _ _ _ => rfl)
      (fun t => by rw [after0_1]; unfold Dat.blockOf tile0; rw [A_eq0]; try rfl) t d).trans
    (by unfold Dat.fetched Dat.blockOf tile0; rw [A_eq0]; try rfl)

/-! ## The kernel on whole buffers -/

/-- The whole-tile access of the weight's buffer. -/
abbrev dequantStoreRect : Rect S256x4096 := Rect.unit (s := S256x4096) ![0, 0] S256x4096.size inb_S256x4096_S256x4096_0_0

/-- One store through the whole tile covers the buffer. -/
theorem dequantStore_covers (p : Vec F S256x4096 .bf16) (y : S256x4096.Idx) :
    ∃ pc ∈ ([⟨dequantStoreRect, p⟩] : List (View.Piece (Elt F) S256x4096 .bf16)), y ∈ pc.1.set :=
  View.cover_of_tiled [⟨dequantStoreRect, p⟩] S256x4096.size (by rfl) y

set_option maxHeartbeats 1000000 in
/-- On whole buffers, the integers' at `x0`, the scales' at `x1` and the weight's at anything, the kernel leaves the
    two inputs as they were and the weight's buffer at the scaled integers rounded to bf16: its one store is through
    the whole tile, so what it wrote is all that is read back. -/
theorem dequant_whole (c : Dev nD) (E : Set ℕ) (i : grid0.Coords)
    (a0 : Memref sig .tc .vmem S256x4096 .i32) (h0 : a0.IsWhole) (a1 : Memref sig .tc .vmem S256x32 .f32) (h1 : a1.IsWhole)
    (a2 : Memref sig .tc .vmem S256x4096 .bf16) (h2 : a2.IsWhole)
    (x0 : Vec F S256x4096 .i32) (x1 : Vec F S256x32 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (k0_pay1 x0 x1)) -∗ K ⟨⟩))
      ⊢ wp frame (wpE (defs₀ (F := F)) Variants.none c none) E (cc0__dequant_kernel i a0 h0 a1 h1 a2 h2) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (dequantStore_covers _),
    View.canon_unit_zero (S := S256x4096) zeros2 inb_S256x4096_S256x4096_0_0]
  simp only [View.readAt_eq_ld, View.ld_unit_zero (S := S256x4096) zeros2, View.ld_unit_zero (S := S256x32) zeros2]

/-! ## The body at a point -/

/-- What the body is handed at point `t`: the invariant, the core's debts, and each window's current staging buffer. -/
def atEntry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, each buffer at what the proof data say. -/
def atExit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their tiles, so the kernel's run on whole buffers applies with the tiles
    as the inputs; the invariant and the debts are not touched. -/
theorem dequant_point (c : Dev nD) (t : Fin cfg0.N) :
    atEntry0 V c t ⊢ wp frame (wpE (defs₀ (F := F)) Variants.none c none) Set.univ (bodyAt0 t) (fun _ => atExit0 V c t) := by
  unfold atEntry0 atExit0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (dequant_whole c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body does at every point what the proof data say. -/
theorem body0 (c : Dev nD) : BodyObligation (dat0 (F := F) V c) (defs₀ (F := F)) Variants.none () Set.univ := fun t => by
  rw [bigSep_W0, bigSep_W0]
  exact dequant_point V c t

end

end Cert.KernelIdeal.Hand

end
-- ==== Proof.KernelIdeal.Matmul.lean ====
/-
  The second region: x2 @ wᵀ tile by tile on the grid 8 × 4 × 4, the last axis the contraction's four stretches of
  1024 columns. Point t has last coordinate t mod 4. At every point the body adds the product of its two tiles to an
  accumulator kept in scratch memory; where the last coordinate is 0 it first sets the accumulator to zero, and where
  it is 3 it copies the accumulator to the output tile, which is written back only there. So the scratch after a
  point holds the partial sums since the last reset, and the region's invariant after a point is the scratch at
  exactly that, beside the rest of the scoped memory, which the body does not touch.
-/
import proofs.«131810_j15058155339890_1_alg».proof.Proof.Gen.KernelIdeal.Launch
import proofs.«131810_j15058155339890_1_alg».proof.Proof.Gen.KernelIdeal.Skeleton
import proofs.«131810_j15058155339890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s tile at point `t`: its block of the array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR after the point at position `n`: the product of that point's tiles added to zero where the
    stretch begins (n ≡ 0 mod 4), to what the point before left otherwise. -/
def accAt (c : Dev nD) : (n : ℕ) → n < cfg1.N → Vec F S1024x1024 .f32
  | 0, h => k1_pay2 (tile1 V c 0 ⟨0, h⟩) (tile1 V c 1 ⟨0, h⟩) (k1_pay1 (F := F))
  | n + 1, h =>
    if (n + 1) % 4 = 0 then k1_pay2 (tile1 V c 0 ⟨n + 1, h⟩) (tile1 V c 1 ⟨n + 1, h⟩) (k1_pay1 (F := F))
    else k1_pay2 (tile1 V c 0 ⟨n + 1, h⟩) (tile1 V c 1 ⟨n + 1, h⟩) (accAt c n (Nat.lt_of_succ_lt h))

/-- At the first point of a stretch the accumulator starts from zero. -/
theorem accAt_first (c : Dev nD) (t : Fin cfg1.N) (h : t.val % 4 = 0) :
    accAt V c t.val t.isLt = k1_pay2 (tile1 V c 0 t) (tile1 V c 1 t) (k1_pay1 (F := F)) := by
  obtain ⟨n, hn⟩ := t
  cases n with
  | zero => rfl
  | succ n => exact if_pos h

/-- At a later point of a stretch it goes on from what the point before left. -/
theorem accAt_next (c : Dev nD) (t : Fin cfg1.N) (h : t.val % 4 ≠ 0) :
    accAt V c t.val t.isLt
      = k1_pay2 (tile1 V c 0 t) (tile1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The scoped memory the second region's body never touches: the first region's six staging buffers, each at
    some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The scratch accumulator as a memref. -/
abbrev accRef : Memref sig .tc .vmem S1024x1024 .f32 := Memref.whole cc1_scratch0

/-- The region's invariant before position `n`: before the first point all the scoped rest at anything; afterwards
    the accumulator at what the point before left, the untouched scoped memory, the generator register. -/
def accInv (c : Dev nD) : (n : ℕ) → n ≤ cfg1.N → sProp 𝕄
  | 0, _ => Pipeline.ΦA spec1 c
  | n + 1, hn => iprop(owns (c : Thread nD τ) accRef fullShare (accAt V c n hn) ∗ otherScoped (F := F) c ∗ (∃ r, prngReg c r))

/-- The region's proof data: the arrays as found; after the body the inputs' buffers hold their tiles and the
    output's the accumulator (it is consulted only where the output is stored and written back, at the last point of
    each stretch); the invariant carries the accumulator; nothing owed. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => accAt V c t.val t.isLt
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = accAt V c t.val t.isLt := by dsimp only [dat1]

/-! ## Which branch a point takes, and where the output tile rests -/

/-- The body's first test: the last grid coordinate is 0 (the stretch begins, the accumulator is zeroed). -/
abbrev atStart (i : grid1.Coords) : Prop :=
  (Scalar.cmpi .ne (Scalar.extui (Scalar.cmpi .eq (BitVec.ofNat 32 (i 2).val) 0#32)) 0#32) = 1#1

/-- The body's second test: the last grid coordinate is 3 (the stretch ends, the accumulator is copied out). -/
abbrev atEnd (i : grid1.Coords) : Prop := k1_cond2 i = 1#1

/-- The last coordinate of point `t` is `t mod 4`, so the first test holds exactly where `t ≡ 0`, -/
theorem atStart_iff : ∀ t : Fin cfg1.N, atStart (grid1.coords t) ↔ t.val % 4 = 0 :=
  (by decide +kernel : ∀ t : Fin grid1.N, atStart (grid1.coords t) ↔ t.val % 4 = 0)

/-- and the second exactly where `t ≡ 3`. -/
theorem atEnd_iff : ∀ t : Fin cfg1.N, atEnd (grid1.coords t) ↔ t.val % 4 = 3 :=
  (by decide +kernel : ∀ t : Fin grid1.N, atEnd (grid1.coords t) ↔ t.val % 4 = 3)

/-- The two input windows are in use at every point. -/
theorem inUse1_0 : ∀ t : Fin cfg1.N, cfg1.idle 0 (grid1.coords t) = false := by decide +kernel
theorem inUse1_1 : ∀ t : Fin cfg1.N, cfg1.idle 1 (grid1.coords t) = false := by decide +kernel

/-- The output window rests at every point but the last of a stretch, -/
theorem rests1_2 : ∀ t : Fin cfg1.N, t.val % 4 ≠ 3 → cfg1.idle 2 (grid1.coords t) = true := by decide +kernel

/-- where it is in use; -/
theorem inUse1_2 : ∀ t : Fin cfg1.N, t.val % 4 = 3 → cfg1.idle 2 (grid1.coords t) = false := by decide +kernel

/-- and where it rests it is not written back. -/
theorem notBack1_2 (t : Fin cfg1.N) (h : t.val % 4 ≠ 3) : (cfg1.win 2).flush t = false := by
  cases hf : (cfg1.win 2).flush t with
  | false => rfl
  | true => exact absurd ((flush1_2 t).mp hf) h

/-! ## The body run once in each of its three cases

The kernel on any four whole memrefs: the two input tiles `x`, `w`, the output tile's buffer, the accumulator.
Every access is of a whole tile, at offsets zero. -/

/-- Every offset of the whole-tile accesses is zero. -/
private theorem zeroOffsets : (![0, 0] : Fin 2 → Nat) = fun _ => 0 := funext fun a => by fin_cases a <;> rfl

/-- After a store of the whole shape, whatever was stored before it, the buffer reads as that store's payload. -/
private theorem read_after_store {S : Shape} {e : EltTy} {κ : Kind} {sp : Space} {off : Fin S.rank → Nat} (h : off = fun _ => 0)
    (inb : ∀ a, off a + S.size a ≤ S.size a) (v : View sig κ sp S e) (f : v.ty.Contents (Elt F))
    (p : S.Idx → Elt F e) (L : List (View.Piece (Elt F) S e)) :
    v.read (Elt F) (v.writes (Elt F) f ((⟨Rect.unit off S.size inb, p⟩ : View.Piece (Elt F) S e) :: L)) = p := by
  subst h; funext y
  have e := View.read_writes_cons_emb (v := v) (f := f) (Rect.whole S) p L y
  rw [Rect.emb_whole_apply] at e
  exact e

/-- A load of the whole shape from a whole memref reads its contents. -/
private theorem load_whole {S : Shape} {e : EltTy} {κ : Kind} {sp : Space} {off : Fin S.rank → Nat} (h : off = fun _ => 0)
    (inb : ∀ a, off a + S.size a ≤ S.size a) (m : Memref sig κ sp S e) (hm : m.IsWhole) (X : S.Idx → Elt F e) :
    View.readAt (Elt F) m.view (Rect.unit off S.size inb).toLoadRect (hm.unread X) = X := by
  rw [View.readAt_eq_ld, hm.read_unread, View.ld_unit_zero h]

set_option maxHeartbeats 1000000 in
/-- Inside a stretch (last coordinate 1 or 2) neither branch is taken: the accumulator `a` becomes `a` plus the
    product of the tiles, and the output tile's buffer is left as found. -/
theorem run_inside (c : Dev nD) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (h0 : ¬atStart i) (h3 : ¬atEnd i)
    (x : Vec F S1024x1024 .f32) (w : Vec F S1024x1024 .bf16) (o a : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare o ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact h0 | exact h3)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_after_store zeroOffsets, load_whole zeroOffsets, load_whole zeroOffsets, load_whole zeroOffsets]

set_option maxHeartbeats 1000000 in
/-- Where a stretch begins (last coordinate 0) the first branch is taken: the accumulator, whatever it held, is set to
    zero and read back, and becomes zero plus the product of the tiles; the output tile's buffer is left as found. -/
theorem run_first (c : Dev nD) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (h0 : atStart i) (h3 : ¬atEnd i)
    (x : Vec F S1024x1024 .f32) (w : Vec F S1024x1024 .bf16) (o a : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare o ∗ owns (c : Thread nD τ) arg6 fullShare (k1_pay2 x w (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact h0 | exact h3)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  sl_unfold_words
  rw [read_after_store zeroOffsets, View.readCov_unit_zero (S := S1024x1024) _ zeroOffsets, load_whole zeroOffsets,
    load_whole zeroOffsets]

set_option maxHeartbeats 1000000 in
/-- Where a stretch ends (last coordinate 3) the second branch is taken: the accumulator `a` becomes `a` plus the product
    of the tiles, is read back, and is stored whole into the output tile's buffer. -/
theorem run_last (c : Dev nD) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (h0 : ¬atStart i) (h3 : atEnd i)
    (x : Vec F S1024x1024 .f32) (w : Vec F S1024x1024 .bf16) (o a : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare (k1_pay2 x w a) ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact h0 | exact h3)
  sl_step
  iapply Hk
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [read_after_store zeroOffsets, View.readCov_unit_zero (S := S1024x1024) _ zeroOffsets, load_whole zeroOffsets,
      load_whole zeroOffsets, load_whole zeroOffsets]
  iexists _; isplitr
  swap; · iexact H6
  ipureintro
  sl_unfold_words
  rw [read_after_store zeroOffsets, load_whole zeroOffsets, load_whole zeroOffsets, load_whole zeroOffsets]

/-! ## The invariant, opened -/

/-- After the point at position `n`: the accumulator at that point's sum. -/
theorem accInv_succ (c : Dev nD) (n : ℕ) (hn : n < cfg1.N) :
    accInv V c (n + 1) hn
      = iprop(owns (c : Thread nD τ) accRef fullShare (accAt V c n hn) ∗ otherScoped (F := F) c ∗ (∃ r, prngReg c r)) := rfl

/-- Before any point but the first: the accumulator at what the point before left. -/
theorem accInv_pos (c : Dev nD) (n : ℕ) (h : n ≤ cfg1.N) (hz : n ≠ 0) :
    accInv V c n h
      = iprop(owns (c : Thread nD τ) accRef fullShare (accAt V c (n - 1) (by omega)) ∗ otherScoped (F := F) c ∗ (∃ r, prngReg c r)) := by
  cases n with
  | zero => exact absurd rfl hz
  | succ n => rfl

/-- What the launch hands the region, the accumulator's buffer named as a memref: the six other buffers, the
    accumulator at anything, the generator register. -/
theorem scoped_open (c : Dev nD) :
    (Pipeline.ΦA spec1 c : sProp 𝕄)
      ⊢ iprop((∃ d, owns (c : Thread nD τ) accRef fullShare d) ∗ otherScoped (F := F) c ∗ (∃ r, prngReg c r)) := by
  unfold Pipeline.ΦA otherScoped; rw [scopedRest1_eq]; simp only [accRef, owns_whole]
  iintro ⟨⟨Ha, Hb, Hc, Hd, He, Hf, Hs⟩, Hr⟩
  isplitl [Hs]; · iexact Hs
  isplitr [Hr]
  · isplitl [Ha]; · iexact Ha
    isplitl [Hb]; · iexact Hb
    isplitl [Hc]; · iexact Hc
    isplitl [Hd]; · iexact Hd
    isplitl [He]; · iexact He
    iexact Hf
  iexact Hr

/-- And back. -/
theorem scoped_close (c : Dev nD) :
    iprop((∃ d, owns (c : Thread nD τ) accRef fullShare d) ∗ otherScoped (F := F) c ∗ (∃ r, prngReg c r))
      ⊢ (Pipeline.ΦA spec1 c : sProp 𝕄) := by
  unfold Pipeline.ΦA otherScoped; rw [scopedRest1_eq]; simp only [accRef, owns_whole]
  iintro ⟨Hs, ⟨Ha, Hb, Hc, Hd, He, Hf⟩, Hr⟩
  isplitr [Hr]
  · isplitl [Ha]; · iexact Ha
    isplitl [Hb]; · iexact Hb
    isplitl [Hc]; · iexact Hc
    isplitl [Hd]; · iexact Hd
    isplitl [He]; · iexact He
    isplitl [Hf]; · iexact Hf
    iexact Hs
  iexact Hr

/-- Before any point the invariant holds the accumulator at something, beside the rest: all a point needs that
    zeroes it first. -/
theorem accInv_forget (c : Dev nD) (n : ℕ) (h : n ≤ cfg1.N) :
    accInv V c n h
      ⊢ iprop((∃ d, owns (c : Thread nD τ) accRef fullShare d) ∗ otherScoped (F := F) c ∗ (∃ r, prngReg c r)) := by
  cases n with
  | zero => exact scoped_open c
  | succ n =>
    rw [accInv_succ]
    iintro ⟨Hs, Ho, Hr⟩
    isplitl [Hs]; · iexists _; iexact Hs
    isplitl [Ho]; · iexact Ho
    iexact Hr

/-! ## The buffers a point is handed, and what the inputs' hold -/

/-- The three windows' current staging memrefs at point `t`, as the pipeline passes them to the body. -/
abbrev xBuf (t : Fin cfg1.N) : Memref sig .tc .vmem S1024x1024 .f32 := win1_0.stage (cfg1.slots t 0)
abbrev xBuf_whole (t : Fin cfg1.N) : (xBuf t).IsWhole := hstage1_0 ((cfg1.slots t 0).cast nbuf1_0)
abbrev wBuf (t : Fin cfg1.N) : Memref sig .tc .vmem S1024x1024 .bf16 := win1_1.stage (cfg1.slots t 1)
abbrev wBuf_whole (t : Fin cfg1.N) : (wBuf t).IsWhole := hstage1_1 ((cfg1.slots t 1).cast nbuf1_1)
abbrev oBuf (t : Fin cfg1.N) : Memref sig .tc .vmem S1024x1024 .f32 := win1_2.stage (cfg1.slots t 2)
abbrev oBuf_whole (t : Fin cfg1.N) : (oBuf t).IsWhole := hstage1_2 ((cfg1.slots t 2).cast nbuf1_2)

/-- Each input's current buffer holds its tile at every point: the body leaves the tile in place and the window is
    always in use, so fetched there or not the buffer holds the block of the array. -/
theorem before1_0 (c : Dev nD) (t : Fin cfg1.N) (d) : (dat1 V c).before 0 t d = tile1 V c 0 t :=
  ((dat1 V c).before_in_eq_fetched 0 rfl (fun _ => rfl) (fun _ _ _ => rfl)
    (fun t => by rw [after1_0]; unfold Dat.blockOf tile1; rw [A_eq1]; try rfl) t d).trans
    (by unfold Dat.fetched Dat.blockOf tile1; rw [A_eq1]; try rfl)

theorem before1_1 (c : Dev nD) (t : Fin cfg1.N) (d) : (dat1 V c).before 1 t d = tile1 V c 1 t :=
  ((dat1 V c).before_in_eq_fetched 1 rfl (fun _ => rfl) (fun _ _ _ => rfl)
    (fun t => by rw [after1_1]; unfold Dat.blockOf tile1; rw [A_eq1]; try rfl) t d).trans
    (by unfold Dat.fetched Dat.blockOf tile1; rw [A_eq1]; try rfl)

/-! ## The body obligation at a point -/

/-- What the body is handed at point `t`: the invariant, the core's debt, the three windows' buffers, -/
def bodyPre1 (c : Dev nD) (t : Fin cfg1.N) : sProp 𝕄 :=
  iprop((dat1 V c).Φ t.castSucc ∗ (dat1 V c).owesAt () t.castSucc
    ∗ (∃ d, owns (c : Thread nD τ) (xBuf t) fullShare ((dat1 V c).before 0 t d))
    ∗ (∃ d, owns (c : Thread nD τ) (wBuf t) fullShare ((dat1 V c).before 1 t d))
    ∗ (∃ d, owns (c : Thread nD τ) (oBuf t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1600000 in
/-- The body at any point. The inputs' buffers hold their tiles; the point's position in its stretch says which of the
    three runs applies. At the start of a stretch the accumulator's earlier contents do not matter; elsewhere the
    invariant has it at what the point before left, and the run leaves it at this point's sum. The output tile's
    buffer is handed back as found except at the end of a stretch, where it takes the sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = accInv V c (t.val + 1) t.isLt from rfl, accInv_succ]
  rw [show (dat1 V c).Φ t.castSucc = accInv V c t.val (Nat.le_of_lt t.isLt) from rfl]
  rw [show (dat1 V c).leavesExact 0 t = owns (c : Thread nD τ) (xBuf t) fullShare (tile1 V c 0 t) from by
    unfold Dat.leavesExact; rw [inUse1_0 t, after1_0]]
  rw [show (dat1 V c).leavesExact 1 t = owns (c : Thread nD τ) (wBuf t) fullShare (tile1 V c 1 t) from by
    unfold Dat.leavesExact; rw [inUse1_1 t, after1_1]]
  have hN : t.val < 128 := lt_of_lt_of_eq t.isLt (show cfg1.N = 128 from N_1)
  by_cases h0 : t.val % 4 = 0
  · have h3 : t.val % 4 ≠ 3 := by omega
    rw [Dat.leavesExact_idle (dat1 V c) 2 t (rests1_2 t h3) (notBack1_2 t h3), accAt_first V c t h0]
    iintro ⟨HΦ, Ho, ⟨%d0, H0⟩, ⟨%d1, H1⟩, ⟨%d2, H2⟩⟩
    ihave HΦ' := (accInv_forget V c t.val (Nat.le_of_lt t.isLt)) $$ HΦ
    icases HΦ' with ⟨⟨%a, HS⟩, Hrest, Hg⟩
    iapply (run_first c (grid1.coords t) (xBuf t) (xBuf_whole t) (wBuf t) (wBuf_whole t) (oBuf t) (oBuf_whole t) accRef
      (Memref.isWhole_whole _) ((atStart_iff t).mpr h0) (fun h => h3 ((atEnd_iff t).mp h)) (tile1 V c 0 t) (tile1 V c 1 t)
      ((dat1 V c).before 2 t d2) a Set.univ _)
    isplitl [H0]; · iexact H0
    isplitl [H1]; · iexact H1
    isplitl [H2]; · iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexists _; iexact H2
  · have hz : t.val ≠ 0 := fun e => h0 (by rw [e])
    rw [accInv_pos V c _ _ hz, accAt_next V c t h0]
    by_cases h3 : t.val % 4 = 3
    · rw [show (dat1 V c).leavesExact 2 t = owns (c : Thread nD τ) (oBuf t) fullShare (accAt V c t.val t.isLt) from by
        unfold Dat.leavesExact; rw [inUse1_2 t h3, after1_2]]
      rw [accAt_next V c t h0]
      iintro ⟨⟨HS, Hrest, Hg⟩, Ho, ⟨%d0, H0⟩, ⟨%d1, H1⟩, ⟨%d2, H2⟩⟩
      iapply (run_last c (grid1.coords t) (xBuf t) (xBuf_whole t) (wBuf t) (wBuf_whole t) (oBuf t) (oBuf_whole t) accRef
        (Memref.isWhole_whole _) (fun h => h0 ((atStart_iff t).mp h)) ((atEnd_iff t).mpr h3) (tile1 V c 0 t) (tile1 V c 1 t)
        ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexact H2
    · rw [Dat.leavesExact_idle (dat1 V c) 2 t (rests1_2 t h3) (notBack1_2 t h3)]
      iintro ⟨⟨HS, Hrest, Hg⟩, Ho, ⟨%d0, H0⟩, ⟨%d1, H1⟩, ⟨%d2, H2⟩⟩
      iapply (run_inside c (grid1.coords t) (xBuf t) (xBuf_whole t) (wBuf t) (wBuf_whole t) (oBuf t) (oBuf_whole t) accRef
        (Memref.isWhole_whole _) (fun h => h0 ((atStart_iff t).mp h)) (fun h => h3 ((atEnd_iff t).mp h)) (tile1 V c 0 t)
        (tile1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      iexists _; iexact H2

/-- The body does at every point what the proof data say. -/
theorem body1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = accInv V c 0 (Nat.zero_le _) from rfl]
  exact Idealize.SL.BI.Entails.refl _

/-- After the last point the invariant gives the scoped rest back, the accumulator's contents forgotten. -/
theorem hout1 (c : Dev nD) : (dat1 V c).Φ (Fin.last cfg1.N) ⊢ (Pipeline.ΦA spec1 c : sProp 𝕄) := by
  rw [show (dat1 V c).Φ (Fin.last cfg1.N) = accInv V c (Fin.last cfg1.N).val (Nat.le_of_lt_succ (Fin.last cfg1.N).isLt) from rfl]
  exact (accInv_forget V c _ _).trans (scoped_close c)

end

end Cert.KernelIdeal.Hand

end
-- ==== Proof.KernelIdeal.Run.lean ====
/-
  The whole program as four items run in order: the two reshapes of the arguments, the dequantisation region, the
  product region, the reshape of the result. Between two items every unscoped buffer of the core is held whole at
  contents named here (`at0` … `at4`): an item's host operations applied to what was there, or a region's arrays at
  what its write-backs leave and everything else as it was. The run ends with every unscoped buffer at `at4`.
-/
import proofs.«131810_j15058155339890_1_alg».proof.Proof.Gen.KernelIdeal.Launch
import proofs.«131810_j15058155339890_1_alg».proof.Proof.Gen.KernelIdeal.Skeleton
import proofs.«131810_j15058155339890_1_alg».proof.Proof.Gen.KernelIdeal.Points
import proofs.«131810_j15058155339890_1_alg».proof.Proof.Gen.KernelIdeal.Regions
import proofs.«131810_j15058155339890_1_alg».proof.Proof.KernelIdeal.Dequant
import proofs.«131810_j15058155339890_1_alg».proof.Proof.KernelIdeal.Matmul
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- At launch. -/
abbrev at0 : Dev nD → Valuation τ sig (Elt F) := fun c b => m (c, b)
/-- After the arguments' reshapes (the first region's entry). -/
abbrev at1 : Dev nD → Valuation τ sig (Elt F) := fun c => StableHlo.after hostOps0 (at0 m c)
/-- The same, read at the TensorCore's references. -/
abbrev in1 : (c : Dev nD) → (b : Ref sig .tc) → Buf (Elt F) ((c : Thread nD τ).loc b) := fun c b => at1 m c b
/-- After the dequantisation region: its arrays at what its write-backs leave, the rest as entered. -/
def at2 (c : Dev nD) : Valuation τ sig (Elt F) :=
  Pipeline.withArrays spec0 c (at1 m c) fun w => (dat0 (in1 m) c).arrAt w cfg0.N
/-- The same, read at the TensorCore's references (the second region's entry). -/
abbrev in2 : (c : Dev nD) → (b : Ref sig .tc) → Buf (Elt F) ((c : Thread nD τ).loc b) := fun c b => at2 m c b
/-- After the product region. -/
def at3 (c : Dev nD) : Valuation τ sig (Elt F) :=
  Pipeline.withArrays spec1 c (at2 m c) fun w => (dat1 (in2 m) c).arrAt w cfg1.N
/-- After the result's reshape: the end. -/
abbrev at4 : Dev nD → Valuation τ sig (Elt F) := fun c => StableHlo.after hostOps2 (at3 m c)

/-! ## Where a region ends: its arrays at what the write-backs leave, every other buffer untouched -/

/-- After the dequantisation each of its arrays holds what its write-backs leave, -/
theorem at2_arr (c : Dev nD) (w : Fin cfg0.W) :
    at2 m c (Proc.devRef .tc (Pipeline.arrRef spec0 w)) = (dat0 (in1 m) c).arrAt w cfg0.N := by
  unfold at2; exact Pipeline.withArrays_arr spec0 launch0.win.arr_inj c _ _ w
/-- and a buffer that is none of them what it held when the region was entered. -/
theorem at2_off (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
/-- After the product each of its arrays holds what its write-backs leave, -/
theorem at3_arr (c : Dev nD) (w : Fin cfg1.W) :
    at3 m c (Proc.devRef .tc (Pipeline.arrRef spec1 w)) = (dat1 (in2 m) c).arrAt w cfg1.N := by
  unfold at3; exact Pipeline.withArrays_arr spec1 launch1.win.arr_inj c _ _ w
/-- and a buffer that is none of them what the dequantisation left there. -/
theorem at3_off (c : Dev nD) (b : Ref sig .tc) (hb : ∀ w, Pipeline.arrRef spec1 w ≠ b) :
    at3 m c (Proc.devRef .tc b) = at2 m c (Proc.devRef .tc b) := by
  unfold at3; exact Pipeline.withArrays_of_ne spec1 c _ _ b hb

/-! ## The proof data of the two regions, and what a core keeps beside its buffers -/

/-- The dequantisation's proof data from the contents it is entered at, the product's from what the dequantisation
    left: written case by case, so that each region's configuration is the printed one. -/
def pdats : (p : Fin 2) → (c : Dev nD) → Dat τ (Elt F) Unit ℕ (UR sig nD τ) ℕ (Pipeline.pin (pcfgs (F := F)) adm p) c
  | ⟨0, _⟩ => fun c => dat0 (in1 m) c
  | ⟨1, _⟩ => fun c => dat1 (in2 m) c

/-- No core waits on another: no level is assigned anywhere. -/
abbrev noLevels : GSem nD τ sig → Finset Unit := fun _ => ∅
abbrev levelOf : GSem nD τ sig → Unit → ℕ := fun _ _ => 0

/-- Beside its buffers a core keeps, through all four items, its generator register at some state (a region takes it
    into its invariant and returns it) and the record that it owes nothing. -/
abbrev beside (c : Dev nD) : sProp 𝕄 :=
  iprop((∃ r, prngReg c r) ∗ ∃ W, owes (c : Thread nD τ) (0 : CellTallies nD τ sig Unit) W)

/-- A core between two items: every unscoped buffer whole at the given contents, and what it keeps beside them. -/
abbrev between (V : Dev nD → Valuation τ sig (Elt F)) (c : Dev nD) : sProp 𝕄 :=
  iprop(StableHlo.held (c : Thread nD τ) (Pipeline.ucRefs τ sig) (V c) ∗ beside (F := F) c)

/-- A line of reshapes as an item: it takes the unscoped buffers from the contents V to the reshapes applied to V. -/
abbrev reshapes (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UR sig nD τ) (pcfgs (F := F)) defs₀ Variants.none noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) V (beside (F := F))

/-! ## The two regions as items -/

set_option backward.isDefEq.respectTransparency.types false in
/-- THE DEQUANTISATION: entered with the unscoped buffers at at1, left with them at at2. Its three arrays are taken
    out of the unscoped buffers and put back at what the write-backs leave; the generator register goes into the
    invariant (with the scoped memory the region does not stage in) and comes back; the five other unscoped buffers go round. -/
def dequantItem : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (body0 (in1 m) c).loose
  hwaits := Pipeline.hwaits_of_owed_zero _ _ _ _ noLevels levelOf 0 fun _ _ => rfl
  pre := between (at1 m)
  post := between (at2 m)
  X c := iprop(∃ r, prngReg c r)
  Y c := iprop(∃ r, prngReg c r)
  Z c := Pipeline.unscopedRest (Ix := Unit) (Name := ℕ) (U := UR sig nD τ) (Lvl := ℕ) spec0 c (in1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in1 m c) fun _ => rfl
    rw [Pipeline.unscopedBufs_held] at hsplit
    iintro ⟨⟨Hbufs, Hreg, Howes⟩, -, -⟩
    ihave H := hsplit $$ Hbufs
    icases H with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in1 m c) (in2 m c) ((pdats m 0 c).arrAt · cfg0.N) (fun w => (at2_arr m c w).symm)
      (fun b hb => at2_off m c b fun w e => hb (Finset.mem_image.mpr ⟨w, Finset.mem_univ _, e⟩))
    rw [Pipeline.unscopedBufs_held] at hjoin
    iintro ⟨Harr, Howes, Hreg, Hothers⟩
    imodintro
    isplitl [Harr Hothers]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- THE PRODUCT: entered with the unscoped buffers at at2 (the weights where the dequantisation wrote them), left with
    them at at3. As for the dequantisation, except that its invariant carries the accumulator from point to point:
    what the launch hands it is the invariant before the first point, and after the last point the invariant gives the
    scoped memory back with the accumulator's contents forgotten. -/
def productItem : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (body1 (in2 m) c).loose
  hwaits := Pipeline.hwaits_of_owed_zero _ _ _ _ noLevels levelOf 1 fun _ _ => rfl
  pre := between (at2 m)
  post := between (at3 m)
  X c := iprop(∃ r, prngReg c r)
  Y c := iprop(∃ r, prngReg c r)
  Z c := Pipeline.unscopedRest (Ix := Unit) (Name := ℕ) (U := UR sig nD τ) (Lvl := ℕ) spec1 c (in2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in2 m c) fun _ => rfl
    rw [Pipeline.unscopedBufs_held] at hsplit
    iintro ⟨⟨Hbufs, Hreg, Howes⟩, -, -⟩
    ihave H := hsplit $$ Hbufs
    icases H with ⟨Harr, Hothers⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hothers
  hin c := by
    refine BIBase.Entails.trans ?_ (hin1 (in2 m) c)
    unfold Pipeline.ΦA
    iintro ⟨Hreg, -, Hscoped⟩
    isplitl [Hscoped]; · iexact Hscoped
    iexact Hreg
  hout c := by
    rw [Pipeline.ownSems0_none]
    refine (hout1 (in2 m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in2 m c) (fun b => at3 m c b) ((pdats m 1 c).arrAt · cfg1.N) (fun w => (at3_arr m c w).symm)
      (fun b hb => at3_off m c b fun w e => hb (Finset.mem_image.mpr ⟨w, Finset.mem_univ _, e⟩))
    rw [Pipeline.unscopedBufs_held] at hjoin
    iintro ⟨Harr, Howes, Hreg, Hothers⟩
    imodintro
    isplitl [Harr Hothers]
    · iapply hjoin; isplitl [Harr] <;> iassumption
    isplitl [Hreg]; · iexact Hreg
    unfold Pipeline.Dat.owesAt Pipeline.owesWithin
    icases Howes with ⟨%W, -, Howes⟩; iexists W; iexact Howes

/-! ## The program as its four items, and the launch -/

/-- The arguments' reshapes, the dequantisation, the product, the result's reshape. -/
abbrev items : List (Pipeline.Seg (pcfgs (F := F)) adm (pdats m) () defs₀ Variants.none noLevels levelOf) :=
  [ .host (reshapes hostOps0 hostOps0_sub hostOps0_fresh (at0 m)),
    .region (dequantItem m),
    .region (productItem m),
    .host (reshapes hostOps2 hostOps2_sub hostOps2_fresh (at3 m)) ]

/-- The printed program is the four items run in order. -/
theorem main_items (c : Dev nD) : main (F := F) c = Pipeline.Seg.run (items m) := (main_chain c).trans (by chain_rfl)

/-- An unscoped reference of the TensorCore is among those a core holds between items. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- THE RUN: from any memory, with every counter at zero, every weakly fair execution of the program terminates,
    nothing faulting, and every unscoped buffer of every core ends at `at4`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = at4 m c b) :=
  Pipeline.θ_run_regions_kit (pcfgs (F := F)) adm (pdats m) () cellOf_inj emb₁ defs₀ Variants.none noLevels levelOf m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (at0 m))
    (Tₙ := fun c => iprop(StableHlo.held (c : Thread nD τ) (Pipeline.ucRefs τ sig) (at4 m c) ∗ ∃ r, prngReg c r))
    (hch := ⟨fun _ => .rfl, fun _ => .rfl, fun _ => .rfl, fun _ => .rfl, fun c => by
      show iprop(StableHlo.held (c : Thread nD τ) (Pipeline.ucRefs τ sig) (at4 m c) ∗ beside (F := F) c) ⊢ _
      iintro ⟨Hbufs, Hreg, Howes⟩
      isplitr [Howes]
      · isplitl [Hbufs]; · iexact Hbufs
        iexact Hreg
      iexact Howes⟩)
    (hinit := by
      refine Pipeline.initEach noLevels levelOf fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = at4 m c b)
    (hfin := fun c s' => by
      iintro ⟨⟨Hbufs, -⟩, HSI⟩
      unfold StableHlo.held
      imodintro
      iapply (pointsTo_read_all (Pipeline.ucRefs τ sig) (fun b => (((c : Thread nD τ)).1, b)) (at4 m c) s')
      isplitl [Hbufs] <;> iassumption)
    (hQ := fun _ h => h)

end Cert.KernelIdeal.Hand

end
-- ==== Proof.KernelIdeal.Ends.lean ====
/-
  What the program's last boundary holds. No item writes an argument: the host reshapes write their own results, the
  first region changes only the weight's array and the second only its product's, and a region's input arrays come
  out as they went in. So each argument ends as launched.
-/
import proofs.«131810_j15058155339890_1_alg».proof.Proof.Gen.KernelIdeal.Launch
import proofs.«131810_j15058155339890_1_alg».proof.Proof.Gen.KernelIdeal.Skeleton
import proofs.«131810_j15058155339890_1_alg».proof.Proof.Gen.KernelIdeal.Points
import proofs.«131810_j15058155339890_1_alg».proof.Proof.Gen.KernelIdeal.Regions
import proofs.«131810_j15058155339890_1_alg».proof.Proof.KernelIdeal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The activations end as launched. -/
theorem at4_arg0 (c : Dev nD) : at4 m c (Proc.devRef .tc main_arg0) = m ((c : Thread nD τ).loc main_arg0) :=
  (StableHlo.after_of_writes_sub hostOps2 _ hostOps2_writes (r := main_arg0) (by decide)).trans <|
    (at3_off m c main_arg0 (by decide)).trans <| (at2_off m c main_arg0 (by decide)).trans <|
      (StableHlo.after_of_writes_sub hostOps0 _ hostOps0_writes (r := main_arg0) (by decide)).trans rfl

/-- The ternary matrix ends as launched: the first region reads it through an input window. -/
theorem at4_arg1 (c : Dev nD) : at4 m c (Proc.devRef .tc main_arg1) = m ((c : Thread nD τ).loc main_arg1) :=
  (StableHlo.after_of_writes_sub hostOps2 _ hostOps2_writes (r := main_arg1) (by decide)).trans <|
    (at3_off m c main_arg1 (by decide)).trans <| (at2_arr m c 0).trans <|
      ((dat0 (in1 m) c).arrAt_in 0 rfl _).trans <| (A_eq0 (in1 m) c 0).trans <|
        (StableHlo.after_of_writes_sub hostOps0 _ hostOps0_writes (r := main_arg1) (by decide)).trans rfl

/-- The scales end as launched. -/
theorem at4_arg2 (c : Dev nD) : at4 m c (Proc.devRef .tc main_arg2) = m ((c : Thread nD τ).loc main_arg2) :=
  (StableHlo.after_of_writes_sub hostOps2 _ hostOps2_writes (r := main_arg2) (by decide)).trans <|
    (at3_off m c main_arg2 (by decide)).trans <| (at2_off m c main_arg2 (by decide)).trans <|
      (StableHlo.after_of_writes_sub hostOps0 _ hostOps0_writes (r := main_arg2) (by decide)).trans rfl

/-- THE FRAME: the program terminates, nothing faulting, with its three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_arg0 (by decide))).trans (at4_arg0 m c),
     (h c _ (mem_ucRefs main_arg1 (by decide))).trans (at4_arg1 m c),
     (h c _ (mem_ucRefs main_arg2 (by decide))).trans (at4_arg2 m c)⟩) (run m ρ)

end Cert.KernelIdeal.Hand

end
-- ==== Proof.Spec.lean ====
/-
  The mathematics of the certificate, with no program in sight.

  The effective weight: entry (o, i) of the 4096×4096 ternary matrix, read as a signed integer, times the scale of its
  group of 128 consecutive entries of the row-major flattening — group number (o·4096 + i)/128 = o·32 + i/128.
  The result: y[b, s, o] = Σ_i x[b, s, i] · w[o, i]  (x @ wᵀ).

  The kernel reaches the same numbers in two steps: the weight from the scales laid out as a 4096×32 matrix
  (s2[o, g] = s[o·32 + g]), and the product over the flattened rows r = b·2048 + s accumulated in four stretches of
  1024 columns, starting from zero. Over the extended reals a sum may be regrouped freely (addition is commutative and
  associative there, and 0 + a = a), so the four partial sums added one after the other are the whole sum.
-/
import Idealize.ShloMosaic.PureOps.Ideal
import Idealize.ShloMosaic.Lib.ValueIdx
import Mathlib.Algebra.BigOperators.Fin
import Mathlib.Data.EReal.Basic

noncomputable section

open scoped BigOperators

namespace Cert.Spec

open Idealize.ShloMosaic Idealize.ShloMosaic.ValueIdx

/-- The shapes, spelt out: the activations, the flattened activations, the weight, the scales flat and by row. -/
abbrev SX : Shape := ⟨3, ![4, 2048, 4096]⟩
abbrev SX2 : Shape := ⟨2, ![8192, 4096]⟩
abbrev SW : Shape := ⟨2, ![4096, 4096]⟩
abbrev SS : Shape := ⟨1, ![131072]⟩
abbrev SS2 : Shape := ⟨2, ![4096, 32]⟩

/-- The group of a weight entry, as an index of the flat scales. -/
def grp (o i : Fin 4096) : Fin 131072 := ⟨o.val * 32 + i.val / 128, by have := o.isLt; have := i.isLt; omega⟩

/-- The column group of a weight entry, as a column of the 4096×32 scales. -/
def colGrp (i : Fin 4096) : Fin 32 := ⟨i.val / 128, by have := i.isLt; omega⟩

/-- The effective weight from the flat scales. -/
def weight (t : SW.Idx → BitVec 32) (s : SS.Idx → EReal) : SW.Idx → EReal :=
  fun j => (((t j).toInt : ℝ) : EReal) * s (ix1 (grp (j 0) (j 1)))

/-- The effective weight from the scales by row. -/
def weight2 (t : SW.Idx → BitVec 32) (s2 : SS2.Idx → EReal) : SW.Idx → EReal :=
  fun j => (((t j).toInt : ℝ) : EReal) * s2 (ix2 (j 0) (colGrp (j 1)))

/-- x @ wᵀ on flattened rows. -/
def rowsTimes (x2 : SX2.Idx → EReal) (w : SW.Idx → EReal) : SX2.Idx → EReal :=
  fun j => ∑ k : Fin 4096, x2 (ix2 (j 0) k) * w (ix2 (j 1) k)

/-- THE SPECIFICATION: y[b, s, o] = Σ_i x[b, s, i] · weight[o, i]. -/
def result (x : SX.Idx → EReal) (t : SW.Idx → BitVec 32) (s : SS.Idx → EReal) : SX.Idx → EReal :=
  fun j => ∑ k : Fin 4096, x (ix3 (j 0) (j 1) k) * weight t s (ix2 (j 2) k)

/-- Column number kb·1024 + kk of a row of 4096. -/
def col (kb : Fin 4) (kk : Fin 1024) : Fin 4096 := ⟨kb.val * 1024 + kk.val, by have := kb.isLt; have := kk.isLt; omega⟩

/-- Four stretches of 1024 added one after the other, from zero, are the whole sum over 4096. -/
theorem sum_four_stretches (f : Fin 4096 → EReal) :
    ((((0 : EReal) + ∑ kk : Fin 1024, f (col 0 kk)) + ∑ kk : Fin 1024, f (col 1 kk)) + ∑ kk : Fin 1024, f (col 2 kk))
        + ∑ kk : Fin 1024, f (col 3 kk)
      = ∑ k : Fin 4096, f k := by
  -- column kb·1024 + kk, over all (kb, kk), runs once through the 4096 columns
  have pairs : ∑ p : Fin 4 × Fin 1024, f (col p.1 p.2) = ∑ k : Fin 4096, f k :=
    Fintype.sum_equiv (finProdFinEquiv (m := 4) (n := 1024)) (fun p => f (col p.1 p.2)) f
      (fun p => congrArg f (Fin.ext (by
        show p.1.val * 1024 + p.2.val = p.2.val + 1024 * p.1.val
        omega)))
  rw [← pairs, Fintype.sum_prod_type, Fin.sum_univ_four, zero_add]

end Cert.Spec

end
-- ==== Proof.DequantValue.lean ====
/-
  What the dequantisation region leaves in the weight's array, at the exact instance: every entry the ternary
  integer times the scale of its row's column group. Each of the 16 grid points writes back its 256 rows, the rows
  of the points tile the array, and what a point writes is the same function of the whole arrays read at its rows.

  Inside a tile of 256 rows by 4096 columns, entry (p, q) sits at flat position p·4096 + q = (p·32 + q/128)·128 + q%128,
  so seen as 256×32×128 it is entry (p, q/128, q%128), and the scale spread over the last axis is the one at
  (p, q/128). Row p of the tile of point t is row t·256 + p of the whole array, and the columns are kept, so the
  column group q/128 is the same in the tile and in the array.
-/
import proofs.«131810_j15058155339890_1_alg».proof.Proof.KernelIdeal.Dequant
import proofs.«131810_j15058155339890_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## One entry of a computed tile -/

/-- The column group q / 128 of column q. -/
def dequantGroup (q : Fin 4096) : Fin 32 := ⟨q.val / 128, by have := q.isLt; omega⟩

/-- The place q % 128 of column q inside its group. -/
def dequantLane (q : Fin 4096) : Fin 128 := ⟨q.val % 128, Nat.mod_lt _ (by decide)⟩

set_option maxHeartbeats 400000 in
/-- Entry (p, q) of the tile computed from a ternary tile and a tile of scales: the integer at (p, q), read signed,
    times the scale at (p, q / 128). -/
theorem dequant_tile_at (x0 : Vec Ideal S256x4096 .i32) (x1 : Vec Ideal S256x32 .f32) (p : Fin 256) (q : Fin 4096) :
    k0_pay1 x0 x1 (ix2 p q) = (((x0 (ix2 p q)).toInt : ℝ) : EReal) * x1 (ix2 p (dequantGroup q)) := by
  unfold k0_pay1
  rw [truncf_apply]
  -- the product is taken in the 256×32×128 view: entry (p, q) there is (p, q/128, q%128)
  refine (shapeCast_apply _ _ (ix2 p q) (ix3 p (dequantGroup q) (dequantLane q)) ?_).trans ?_
  · rw [Shape.rowMajor_val_three, Shape.rowMajor_val_two]
    show (p.val * 32 + q.val / 128) * 128 + q.val % 128 = p.val * 4096 + q.val
    omega
  rw [mulf_apply]
  congr 1
  · -- the integers, viewed 256×32×128, back at (p, q)
    refine (shapeCast_apply _ _ (ix3 p (dequantGroup q) (dequantLane q)) (ix2 p q) ?_).trans ?_
    · rw [Shape.rowMajor_val_three, Shape.rowMajor_val_two]
      show p.val * 4096 + q.val = (p.val * 32 + q.val / 128) * 128 + q.val % 128
      omega
    rfl
  · -- the scales, given a last axis of one and spread along it over the 128 places of a group
    refine (broadcastTo_apply _ _ (ix3 p (dequantGroup q) (dequantLane q)) (ix3 p (dequantGroup q) (0 : Fin 1)) ?_).trans ?_
    · intro a
      match a with
      | ⟨0, _⟩ => rfl
      | ⟨1, _⟩ => rfl
      | ⟨2, _⟩ => rfl
    refine (shapeCast_apply _ _ (ix3 p (dequantGroup q) (0 : Fin 1)) (ix2 p (dequantGroup q)) ?_).trans ?_
    · rw [Shape.rowMajor_val_three, Shape.rowMajor_val_two]
      show p.val * 32 + q.val / 128 = (p.val * 32 + q.val / 128) * 1 + 0
      omega
    rw [shapeCast_self]

/-! ## The tiles as rows of the whole arrays -/

variable (V : (c : Dev nD) → (b : Ref sig .tc) → Buf (Elt Ideal) ((c : Thread nD τ).loc b))

/-- Row number t·256 + p of the 4096 rows: row p of the tile of point t. -/
def dequantRow (t : Fin cfg0.N) (p : Fin 256) : Fin 4096 :=
  ⟨t.val * 256 + p.val, by have h : t.val < 16 := t.isLt; have := p.isLt; omega⟩

/-- At point t each of the three windows sits at block row t, block column 0: decided once over the 16 points. -/
private theorem index0_0 : ∀ t : Fin cfg0.N, (cfg0.win 0).index t 0 = t.val ∧ (cfg0.win 0).index t 1 = 0 :=
  (by decide +kernel : ∀ t : Fin grid0.N, win0_0.index t 0 = t.val ∧ win0_0.index t 1 = 0)
private theorem index0_1 : ∀ t : Fin cfg0.N, (cfg0.win 1).index t 0 = t.val ∧ (cfg0.win 1).index t 1 = 0 :=
  (by decide +kernel : ∀ t : Fin grid0.N, win0_1.index t 0 = t.val ∧ win0_1.index t 1 = 0)
private theorem index0_2 : ∀ t : Fin cfg0.N, (cfg0.win 2).index t 0 = t.val ∧ (cfg0.win 2).index t 1 = 0 :=
  (by decide +kernel : ∀ t : Fin grid0.N, win0_2.index t 0 = t.val ∧ win0_2.index t 1 = 0)

/-- The ternary tile of point t is rows t·256 … t·256 + 255 of the ternary matrix, all columns. -/
theorem ternary_tile_at (c : Dev nD) (t : Fin cfg0.N) (p : Fin 256) (q : Fin 4096) :
    tile0 V c 0 t (ix2 p q) = V c main_arg1 (ix2 (dequantRow t p) q) := by
  unfold tile0
  rw [View.read_apply]
  show V c main_arg1 _ = V c main_arg1 _
  congr 1
  funext a
  apply Fin.ext
  match a with
  | ⟨0, _⟩ => show win0_0.index t 0 * 256 + 1 * p.val = t.val * 256 + p.val; rw [(index0_0 t).1]; omega
  | ⟨1, _⟩ => show win0_0.index t 1 * 4096 + 1 * q.val = q.val; rw [(index0_0 t).2]; omega

/-- The scales' tile of point t is rows t·256 … t·256 + 255 of the scales by row, all 32 groups. -/
theorem scales_tile_at (c : Dev nD) (t : Fin cfg0.N) (p : Fin 256) (g : Fin 32) :
    tile0 V c 1 t (ix2 p g) = V c main_v1 (ix2 (dequantRow t p) g) := by
  unfold tile0
  rw [View.read_apply]
  show V c main_v1 _ = V c main_v1 _
  congr 1
  funext a
  apply Fin.ext
  match a with
  | ⟨0, _⟩ => show win0_1.index t 0 * 256 + 1 * p.val = t.val * 256 + p.val; rw [(index0_1 t).1]; omega
  | ⟨1, _⟩ => show win0_1.index t 1 * 32 + 1 * g.val = g.val; rw [(index0_1 t).2]; omega

/-- The weight's block of point t, read from one whole array: its rows t·256 … t·256 + 255, all columns. -/
theorem weight_block_at (c : Dev nD) (t : Fin cfg0.N) (G : Buf (Elt Ideal) ((cfg0.win 2).arr.view.loc (c.tc : Thread nD τ)))
    (p : Fin 256) (q : Fin 4096) :
    ((cfg0.win 2).blk t).view.read (Elt Ideal) G (ix2 p q) = G (ix2 (dequantRow t p) q) := by
  rw [View.read_apply]
  show G _ = G _
  congr 1
  funext a
  apply Fin.ext
  match a with
  | ⟨0, _⟩ => show win0_2.index t 0 * 256 + 1 * p.val = t.val * 256 + p.val; rw [(index0_2 t).1]; omega
  | ⟨1, _⟩ => show win0_2.index t 1 * 4096 + 1 * q.val = q.val; rw [(index0_2 t).2]; omega

/-! ## What a point writes back, the cover, the array -/

/-- What point t computes at row p, column q of its tile is the effective weight at row t·256 + p, column q: the
    integer there times the scale of that row at group q / 128. -/
theorem computed_weight_at (c : Dev nD) (t : Fin cfg0.N) (p : Fin 256) (q : Fin 4096) :
    k0_pay1 (tile0 V c 0 t) (tile0 V c 1 t) (ix2 p q)
      = Cert.Spec.weight2 (V c main_arg1) (V c main_v1) (ix2 (dequantRow t p) q) := by
  refine (dequant_tile_at (tile0 V c 0 t) (tile0 V c 1 t) p q).trans ?_
  rw [ternary_tile_at V c t p q, scales_tile_at V c t p (dequantGroup q)]
  rfl

/-- What point t writes back is its block of the effective weight. -/
theorem flushed_weight (c : Dev nD) (t : Fin cfg0.N) :
    (dat0 V c).flushed 2 t
      = ((cfg0.win 2).blk t).view.read (Elt Ideal) (Cert.Spec.weight2 (V c main_arg1) (V c main_v1)) := by
  show (cfg0.win 2).cut (cfg0.grid.coords t) ((dat0 V c).after 2 t) = _
  rw [after0_2]
  refine funext fun j => ?_
  rw [eq_ix2 (n0 := 256) (n1 := 4096) j]
  exact (computed_weight_at V c t (j 0) (j 1)).trans (weight_block_at c t _ (j 0) (j 1)).symm

/-- Row r of the weight lies in the block of point r / 256, and every point writes its block back. -/
theorem weight_rows_covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 4096 := (i 0).isLt
  have h1 : (i 1 : Nat) < 4096 := (i 1).isLt
  have ht : (i 0 : Nat) / 256 < 16 := by omega
  refine ⟨⟨(i 0 : Nat) / 256, ht⟩, flush0_2 _, ?_⟩
  show i ∈ ((View.whole main_v2).slice (win0_2.rect ⟨(i 0 : Nat) / 256, ht⟩)).set
  rw [View.set_slice_whole, Rect.mem_set_unit]
  intro a
  match a with
  | ⟨0, _⟩ =>
    show win0_2.index _ 0 * 256 ≤ (i 0 : Nat) ∧ (i 0 : Nat) < win0_2.index _ 0 * 256 + 256
    rw [(index0_2 _).1]
    show (i 0 : Nat) / 256 * 256 ≤ (i 0 : Nat) ∧ (i 0 : Nat) < (i 0 : Nat) / 256 * 256 + 256
    omega
  | ⟨1, _⟩ =>
    show win0_2.index _ 1 * 4096 ≤ (i 1 : Nat) ∧ (i 1 : Nat) < win0_2.index _ 1 * 4096 + 4096
    rw [(index0_2 _).2]
    omega

/-- After the region the weight's array holds the effective weight of the ternary matrix and the scales by row, as
    the region found them. -/
theorem weight_array (c : Dev nD) :
    (dat0 V c).arrAt 2 cfg0.N = Cert.Spec.weight2 (V c main_arg1) (V c main_v1) :=
  (dat0 V c).arrAt_eq_of_cover 2 (Cert.Spec.weight2 (V c main_arg1) (V c main_v1))
    (fun t _ => flushed_weight V c t) (fun i => weight_rows_covered c i)

end Cert.KernelIdeal.HandValue

end
-- ==== Proof.MatmulValue.lean ====
/-
  What the product region leaves in its result array, at the exact instance: entry (r, n) is the sum over all 4096
  columns k of x2[r, k] · w[n, k]. The tile (i, j) of the result is written back once, at the last of the four points
  of its stretch, from the accumulator, which by then holds zero plus the four stretches' partial sums in order.
-/
import proofs.«131810_j15058155339890_1_alg».proof.Proof.KernelIdeal.Matmul
import proofs.«131810_j15058155339890_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

/-! ## One step of the accumulation at an entry -/

/-! Both operands are contracted along their second axis; the result's axes are the two first ones. -/

/-- The left operand is read in the result's row … -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- … at the contraction's column; -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand in the row numbered by the result's column … -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- … at the same column. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The step adds to what the accumulator held at (p, q) the product of row p of the activations' tile with row q of
    the weight's tile. -/
theorem step_apply (x : Vec Ideal S1024x1024 .f32) (w : Vec Ideal S1024x1024 .bf16) (s : Vec Ideal S1024x1024 .f32)
    (p q : Fin 1024) :
    k1_pay2 x w s (ix2 p q) = s (ix2 p q) + ∑ kk : Fin 1024, x (ix2 p kk) * w (ix2 q kk) := by
  unfold k1_pay2
  simp only [shapeCast_self]
  rw [addf_apply]
  simp only [matmul]
  rw [Ideal.matmul_constant_zero_apply,
    ← Equiv.sum_comp (contrEquiv1 dot_S1024x1024_S1024x1024_S1024x1024_1_1_0_0_n_n 1024 rfl rfl).symm]
  refine congrArg (s (ix2 p q) + ·) (Finset.sum_congr rfl fun kk _ => ?_)
  have hk := contrEquiv1_symm_val dot_S1024x1024_S1024x1024_S1024x1024_1_1_0_0_n_n 1024 rfl rfl kk
  have el : dot_S1024x1024_S1024x1024_S1024x1024_1_1_0_0_n_n.lhsIdx (ix2 p q)
      ((contrEquiv1 dot_S1024x1024_S1024x1024_S1024x1024_1_1_0_0_n_n 1024 rfl rfl).symm kk) = ix2 p kk :=
    funext fun a => Fin.ext (by
      match a with
      | ⟨0, _⟩ => exact lhs_row _ _
      | ⟨1, _⟩ => exact (lhs_col _ _).trans hk)
  have er : dot_S1024x1024_S1024x1024_S1024x1024_1_1_0_0_n_n.rhsIdx (ix2 p q)
      ((contrEquiv1 dot_S1024x1024_S1024x1024_S1024x1024_1_1_0_0_n_n 1024 rfl rfl).symm kk) = ix2 q kk :=
    funext fun a => Fin.ext (by
      match a with
      | ⟨0, _⟩ => exact rhs_row _ _
      | ⟨1, _⟩ => exact (rhs_col _ _).trans hk)
  rw [el, er]
  rfl

/-- Where a stretch begins the accumulator is set to zero everywhere. -/
theorem start_apply (j : S1024x1024.Idx) : k1_pay1 (F := Ideal) j = 0 := by
  unfold k1_pay1
  simp only [shapeCast_self]
  show Ideal.ofBits .f32 0x00000000#32 = 0
  exact Ideal.ofBits_zero_f32

/-! ## The tiles, read off the arrays -/

/-- Where each window's block sits at a grid point: the point's coordinates are (t / 16, t / 4 mod 4, t mod 4); the
    activations' block is (first, third), the weight's (second, third), the result's (first, second). -/
theorem blocks_at : ∀ t : Fin grid1.N,
    (win1_0.index t (0 : Fin 2) = t.val / 16 ∧ win1_0.index t (1 : Fin 2) = t.val % 4)
    ∧ (win1_1.index t (0 : Fin 2) = t.val / 4 % 4 ∧ win1_1.index t (1 : Fin 2) = t.val % 4)
    ∧ (win1_2.index t (0 : Fin 2) = t.val / 16 ∧ win1_2.index t (1 : Fin 2) = t.val / 4 % 4) := by
  decide +kernel

section
variable (V : (c : Dev nD) → (b : Ref sig .tc) → Buf (Elt Ideal) ((c : Thread nD τ).loc b))

/-- The activations' tile at a point is the 1024 × 1024 block (t / 16, t mod 4) of the flattened activations. -/
theorem tile_x_apply (c : Dev nD) (t : Fin cfg1.N) (p kk : Fin 1024) (r : Fin 8192) (k : Fin 4096)
    (hr : r.val = t.val / 16 * 1024 + p.val) (hk : k.val = t.val % 4 * 1024 + kk.val) :
    (tile1 V c 0 t : Vec Ideal S1024x1024 .f32) (ix2 p kk) = (V c main_v0 : S8192x4096.Idx → EReal) (ix2 r k) := by
  unfold tile1
  rw [View.read_apply]
  show V c main_v0 _ = V c main_v0 _
  congr 1
  funext a
  apply Fin.ext
  match a with
  | ⟨0, _⟩ => show win1_0.index t 0 * 1024 + 1 * p.val = r.val; rw [(blocks_at t).1.1, hr]; omega
  | ⟨1, _⟩ => show win1_0.index t 1 * 1024 + 1 * kk.val = k.val; rw [(blocks_at t).1.2, hk]; omega

/-- The weight's tile at a point is the 1024 × 1024 block (t / 4 mod 4, t mod 4) of the weight. -/
theorem tile_w_apply (c : Dev nD) (t : Fin cfg1.N) (q kk : Fin 1024) (n k : Fin 4096)
    (hn : n.val = t.val / 4 % 4 * 1024 + q.val) (hk : k.val = t.val % 4 * 1024 + kk.val) :
    (tile1 V c 1 t : Vec Ideal S1024x1024 .bf16) (ix2 q kk) = (V c main_v2 : S4096x4096.Idx → EReal) (ix2 n k) := by
  unfold tile1
  rw [View.read_apply]
  show V c main_v2 _ = V c main_v2 _
  congr 1
  funext a
  apply Fin.ext
  match a with
  | ⟨0, _⟩ => show win1_1.index t 0 * 1024 + 1 * q.val = n.val; rw [(blocks_at t).2.1.1, hn]; omega
  | ⟨1, _⟩ => show win1_1.index t 1 * 1024 + 1 * kk.val = k.val; rw [(blocks_at t).2.1.2, hk]; omega

end

/-! ## The accumulator over a stretch -/

/-- One stretch's share of entry (r, n) of the product: columns kb·1024 … kb·1024 + 1023. -/
def stretch (x2 : Cert.Spec.SX2.Idx → EReal) (wt : Cert.Spec.SW.Idx → EReal) (r : Fin 8192) (n : Fin 4096) (kb : Fin 4) : EReal :=
  ∑ kk : Fin 1024, x2 (ix2 r (Cert.Spec.col kb kk)) * wt (ix2 n (Cert.Spec.col kb kk))

/-- Row p of a tile of the activations times row q of a tile of the weight is the kb-th stretch of entry (r, n), when
    those rows are rows r and n of the arrays over the stretch's columns. -/
theorem rows_eq_stretch (x : Vec Ideal S1024x1024 .f32) (w : Vec Ideal S1024x1024 .bf16)
    (x2 : Cert.Spec.SX2.Idx → EReal) (wt : Cert.Spec.SW.Idx → EReal) (p q : Fin 1024) (r : Fin 8192) (n : Fin 4096) (kb : Fin 4)
    (hx : ∀ kk : Fin 1024, x (ix2 p kk) = x2 (ix2 r (Cert.Spec.col kb kk)))
    (hw : ∀ kk : Fin 1024, w (ix2 q kk) = wt (ix2 n (Cert.Spec.col kb kk))) :
    ∑ kk : Fin 1024, x (ix2 p kk) * w (ix2 q kk) = stretch x2 wt r n kb := by
  unfold stretch
  exact Finset.sum_congr rfl fun kk _ => by rw [hx kk, hw kk]

/-- Zero plus the four stretches in order is the whole entry. -/
theorem four_stretches (x2 : Cert.Spec.SX2.Idx → EReal) (wt : Cert.Spec.SW.Idx → EReal) (r : Fin 8192) (n : Fin 4096) :
    (((0 + stretch x2 wt r n 0) + stretch x2 wt r n 1) + stretch x2 wt r n 2) + stretch x2 wt r n 3
      = Cert.Spec.rowsTimes x2 wt (ix2 r n) :=
  Cert.Spec.sum_four_stretches fun k => x2 (ix2 r k) * wt (ix2 n k)

/-- Column kk of the stretch a point works on, the stretch being the point's third coordinate. -/
theorem col_at (t : ℕ) (kb : Fin 4) (hkb : kb.val = t % 4) (kk : Fin 1024) :
    (Cert.Spec.col kb kk).val = t % 4 * 1024 + kk.val := by
  show kb.val * 1024 + kk.val = _
  rw [hkb]

section
variable (V : (c : Dev nD) → (b : Ref sig .tc) → Buf (Elt Ideal) ((c : Thread nD τ).loc b))

/-- The step at a point whose third coordinate is kb adds to entry (p, q) of what it is given the kb-th stretch of
    entry (r, n) of the product, r and n being the rows p and q of the point's blocks. -/
theorem point_adds (c : Dev nD) (t : Fin cfg1.N) (p q : Fin 1024) (r : Fin 8192) (n : Fin 4096) (kb : Fin 4)
    (hr : r.val = t.val / 16 * 1024 + p.val) (hn : n.val = t.val / 4 % 4 * 1024 + q.val) (hkb : kb.val = t.val % 4)
    (s : Vec Ideal S1024x1024 .f32) :
    k1_pay2 (tile1 V c 0 t) (tile1 V c 1 t) s (ix2 p q) = s (ix2 p q) + stretch (V c main_v0) (V c main_v2) r n kb :=
  (step_apply _ _ s p q).trans (congrArg (s (ix2 p q) + ·)
    (rows_eq_stretch (tile1 V c 0 t) (tile1 V c 1 t) (V c main_v0) (V c main_v2) p q r n kb
      (fun kk => tile_x_apply V c t p kk r (Cert.Spec.col kb kk) hr (col_at t.val kb hkb kk))
      (fun kk => tile_w_apply V c t q kk n (Cert.Spec.col kb kk) hn (col_at t.val kb hkb kk))))

/-- Where a stretch begins, the accumulator's entry is zero plus the first stretch. -/
theorem acc_first_apply (c : Dev nD) (t : Fin cfg1.N) (h : t.val % 4 = 0) (p q : Fin 1024) (r : Fin 8192) (n : Fin 4096)
    (kb : Fin 4) (hr : r.val = t.val / 16 * 1024 + p.val) (hn : n.val = t.val / 4 % 4 * 1024 + q.val) (hkb : kb.val = t.val % 4) :
    accAt V c t.val t.isLt (ix2 p q) = 0 + stretch (V c main_v0) (V c main_v2) r n kb := by
  rw [accAt_first V c t h]
  exact (point_adds V c t p q r n kb hr hn hkb _).trans (by rw [start_apply])

/-- Further on, it is what the point before left plus the point's stretch. -/
theorem acc_next_apply (c : Dev nD) (t : Fin cfg1.N) (h : t.val % 4 ≠ 0) (p q : Fin 1024) (r : Fin 8192) (n : Fin 4096)
    (kb : Fin 4) (hr : r.val = t.val / 16 * 1024 + p.val) (hn : n.val = t.val / 4 % 4 * 1024 + q.val) (hkb : kb.val = t.val % 4) :
    accAt V c t.val t.isLt (ix2 p q)
      = accAt V c (t.val - 1) (Nat.lt_of_le_of_lt (Nat.sub_le _ _) t.isLt) (ix2 p q) + stretch (V c main_v0) (V c main_v2) r n kb := by
  rw [accAt_next V c t h]
  exact point_adds V c t p q r n kb hr hn hkb _

/-- At the last point of a stretch the accumulator's entry (p, q) is entry (r, n) of the whole product: the three
    points before it share its first two coordinates and have third coordinates 0, 1, 2. -/
theorem acc_last_apply (c : Dev nD) (t : Fin cfg1.N) (ht : t.val % 4 = 3) (p q : Fin 1024) (r : Fin 8192) (n : Fin 4096)
    (hr : r.val = t.val / 16 * 1024 + p.val) (hn : n.val = t.val / 4 % 4 * 1024 + q.val) :
    accAt V c t.val t.isLt (ix2 p q) = Cert.Spec.rowsTimes (V c main_v0) (V c main_v2) (ix2 r n) := by
  have hN : cfg1.N = 128 := N_1
  have hlt := t.isLt
  have e3 := acc_next_apply V c t (by omega) p q r n 3 hr hn (by show 3 = _; omega)
  have e2 := acc_next_apply V c ⟨t.val - 1, by omega⟩ (by show (t.val - 1) % 4 ≠ 0; omega) p q r n 2
    (by show _ = (t.val - 1) / 16 * 1024 + _; omega) (by show _ = (t.val - 1) / 4 % 4 * 1024 + _; omega)
    (by show 2 = (t.val - 1) % 4; omega)
  have e1 := acc_next_apply V c ⟨t.val - 1 - 1, by omega⟩ (by show (t.val - 1 - 1) % 4 ≠ 0; omega) p q r n 1
    (by show _ = (t.val - 1 - 1) / 16 * 1024 + _; omega) (by show _ = (t.val - 1 - 1) / 4 % 4 * 1024 + _; omega)
    (by show 1 = (t.val - 1 - 1) % 4; omega)
  have e0 := acc_first_apply V c ⟨t.val - 1 - 1 - 1, by omega⟩ (by show (t.val - 1 - 1 - 1) % 4 = 0; omega) p q r n 0
    (by show _ = (t.val - 1 - 1 - 1) / 16 * 1024 + _; omega) (by show _ = (t.val - 1 - 1 - 1) / 4 % 4 * 1024 + _; omega)
    (by show 0 = (t.val - 1 - 1 - 1) % 4; omega)
  exact (e3.trans (congrArg (· + _) (e2.trans (congrArg (· + _) (e1.trans (congrArg (· + _) e0)))))).trans
    (four_stretches (V c main_v0) (V c main_v2) r n)

/-! ## The result array -/

/-- What a writing-back point writes back is its block of the whole product. -/
theorem flushed_product (c : Dev nD) (t : Fin cfg1.N) (hf : (cfg1.win 2).flush t = true) :
    (dat1 V c).flushed 2 t
      = ((cfg1.win 2).blk t).view.read (Elt Ideal) (Cert.Spec.rowsTimes (V c main_v0) (V c main_v2)) := by
  have ht : t.val % 4 = 3 := (flush1_2 t).mp hf
  have hN : cfg1.N = 128 := N_1
  have hlt := t.isLt
  show (cfg1.win 2).cut (grid1.coords t) ((dat1 V c).after 2 t) = _
  rw [after1_2]
  funext y
  rw [View.read_apply]
  have hy0 : (y 0).val < 1024 := (y 0).isLt
  have hy1 : (y 1).val < 1024 := (y 1).isLt
  have e := acc_last_apply V c t ht ⟨(y 0).val, hy0⟩ ⟨(y 1).val, hy1⟩
    ⟨t.val / 16 * 1024 + (y 0).val, by omega⟩ ⟨t.val / 4 % 4 * 1024 + (y 1).val, by omega⟩ rfl rfl
  refine Eq.trans ?_ (e.trans ?_)
  · show accAt V c t.val t.isLt _ = accAt V c t.val t.isLt _
    congr 1
    funext a
    match a with
    | ⟨0, _⟩ => rfl
    | ⟨1, _⟩ => rfl
  · show Cert.Spec.rowsTimes (V c main_v0) (V c main_v2) _ = Cert.Spec.rowsTimes (V c main_v0) (V c main_v2) _
    congr 1
    funext a
    apply Fin.ext
    match a with
    | ⟨0, _⟩ => show t.val / 16 * 1024 + (y 0).val = win1_2.index t 0 * 1024 + 1 * (y 0).val; rw [(blocks_at t).2.2.1]; omega
    | ⟨1, _⟩ => show t.val / 4 % 4 * 1024 + (y 1).val = win1_2.index t 1 * 1024 + 1 * (y 1).val; rw [(blocks_at t).2.2.2]; omega

/-- Every entry of the result array lies in the block of a point that writes back: entry (r, n) in block
    (r / 1024, n / 1024), written back at the last point of that block's stretch. -/
theorem covered (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 128 := N_1
  have h0 : (i 0 : Nat) < 8192 := (i 0).isLt
  have h1 : (i 1 : Nat) < 4096 := (i 1).isLt
  obtain ⟨t, ht⟩ : ∃ t : Fin cfg1.N, t.val = ((i 0 : Nat) / 1024 * 4 + (i 1 : Nat) / 1024) * 4 + 3 :=
    ⟨⟨((i 0 : Nat) / 1024 * 4 + (i 1 : Nat) / 1024) * 4 + 3, by omega⟩, rfl⟩
  refine ⟨t, (flush1_2 t).mpr (by omega), ?_⟩
  show i ∈ ((View.whole main_v3).slice (win1_2.rect t)).set
  rw [View.set_slice_whole, Rect.mem_set_unit]
  intro a
  match a with
  | ⟨0, _⟩ =>
    show win1_2.index t 0 * 1024 ≤ (i 0 : Nat) ∧ (i 0 : Nat) < win1_2.index t 0 * 1024 + 1024
    rw [(blocks_at t).2.2.1, ht]; omega
  | ⟨1, _⟩ =>
    show win1_2.index t 1 * 1024 ≤ (i 1 : Nat) ∧ (i 1 : Nat) < win1_2.index t 1 * 1024 + 1024
    rw [(blocks_at t).2.2.2, ht]; omega

end

variable (V : (c : Dev nD) → (b : Ref sig .tc) → Buf (Elt Ideal) ((c : Thread nD τ).loc b))

/-- After the region the result array holds the flattened activations times the weight's transpose, both as the
    region found them. -/
theorem product_array (c : Dev nD) :
    (dat1 V c).arrAt 2 cfg1.N = Cert.Spec.rowsTimes (V c main_v0) (V c main_v2) :=
  (dat1 V c).arrAt_eq_of_cover 2 (Cert.Spec.rowsTimes (V c main_v0) (V c main_v2)) (flushed_product V c) (covered c)

end Cert.KernelIdeal.HandValue

end
-- ==== Proof.Bridge.lean ====
/-
  The kernel's result is the specification of its arguments. Reading the last boundary backwards: the result is the
  product array reshaped to [4, 2048, 4096]; the product array is the flattened activations times the weight's
  transpose; the flattened activations are the activations reshaped, row r = b·2048 + s; the weight is the ternary
  integer times the scale of its row's column group, the scales by row being the flat scales reshaped,
  s2[o, g] = s[o·32 + g]; and o·32 + i/128 is the group (o·4096 + i)/128 of the reference's flattening.
-/
import proofs.«131810_j15058155339890_1_alg».proof.Proof.Gen.KernelIdeal.Regions
import proofs.«131810_j15058155339890_1_alg».proof.Proof.KernelIdeal.Run
import proofs.«131810_j15058155339890_1_alg».proof.Proof.KernelIdeal.Ends
import proofs.«131810_j15058155339890_1_alg».proof.Proof.DequantValue
import proofs.«131810_j15058155339890_1_alg».proof.Proof.MatmulValue
import Idealize.ShloMosaic.Lib.StableHlo.Run
import proofs.«131810_j15058155339890_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Idealize.ShloMosaic.StableHlo

/-! ## The three reshapes and the two products, composed, index by index -/

/-- Reshaped to rows r = b·2048 + s and back, with the weight from the scales reshaped by row, the flattened product is
    the specification. -/
theorem composed_eq_result (x : Vec Ideal S4x2048x4096 .f32) (t : Vec Ideal S4096x4096 .i32) (s : Vec Ideal S131072 .f32) :
    shapeCast S4x2048x4096
        (Cert.Spec.rowsTimes (shapeCast S8192x4096 x shapeCasts_S4x2048x4096_S8192x4096)
          (Cert.Spec.weight2 t (shapeCast S4096x32 s shapeCasts_S131072_S4096x32)))
        shapeCasts_S8192x4096_S4x2048x4096
      = Cert.Spec.result x t s := by
  funext j
  obtain ⟨b, q, o, rfl⟩ : ∃ (b : Fin 4) (q : Fin 2048) (o : Fin 4096), j = ix3 b q o := ⟨j 0, j 1, j 2, eq_ix3 j⟩
  have hb := b.isLt; have hq := q.isLt; have ho := o.isLt
  -- the result's reshape: entry (b, q, o) is entry (b·2048 + q, o) of the flattened product
  rw [shapeCast_apply _ shapeCasts_S8192x4096_S4x2048x4096 (ix3 b q o)
    (ix2 (⟨b.val * 2048 + q.val, by omega⟩ : Fin 8192) o)
    (by rw [Shape.rowMajor_val_two, Shape.rowMajor_val_three]; show (b.val * 2048 + q.val) * 4096 + o.val = (b.val * 2048 + q.val) * 4096 + o.val; rfl)]
  unfold Cert.Spec.rowsTimes Cert.Spec.result
  refine Finset.sum_congr rfl fun k _ => ?_
  have hk := k.isLt
  -- the activations' reshape: entry (b·2048 + q, k) of the flattened activations is entry (b, q, k)
  rw [shapeCast_apply x shapeCasts_S4x2048x4096_S8192x4096 (ix2 (⟨b.val * 2048 + q.val, by omega⟩ : Fin 8192) k) (ix3 b q k)
    (by rw [Shape.rowMajor_val_two, Shape.rowMajor_val_three]; show (b.val * 2048 + q.val) * 4096 + k.val = (b.val * 2048 + q.val) * 4096 + k.val; rfl)]
  -- the scales' reshape: entry (o, g) of the scales by row is entry o·32 + g of the flat scales
  unfold Cert.Spec.weight2 Cert.Spec.weight
  rw [shapeCast_apply s shapeCasts_S131072_S4096x32 (ix2 o (Cert.Spec.colGrp k)) (ix1 (Cert.Spec.grp o k))
    (by rw [Shape.rowMajor_val_one, Shape.rowMajor_val_two]; show o.val * 32 + k.val / 128 = o.val * 32 + k.val / 128; rfl)]

variable (m : (ℓ : Loc nD τ sig) → Buf (Elt Ideal) ℓ)

/-! ## The boundaries read back -/

/-- The flattened activations, as both regions find them: the activations reshaped. -/
theorem in2_v0 (c : Dev nD) :
    in2 m c main_v0 = shapeCast S8192x4096 (m ((c : Thread nD τ).loc main_arg0) : Vec Ideal S4x2048x4096 .f32) shapeCasts_S4x2048x4096_S8192x4096 :=
  (at2_off m c main_v0 (by decide)).trans (by
    show StableHlo.after hostOps0 _ (Proc.devRef .tc main_v0) = _
    after_results
    rfl)

/-- The scales by row, as the first region finds them: the flat scales reshaped. -/
theorem in1_v1 (c : Dev nD) :
    in1 m c main_v1 = shapeCast S4096x32 (m ((c : Thread nD τ).loc main_arg2) : Vec Ideal S131072 .f32) shapeCasts_S131072_S4096x32 := by
  show StableHlo.after hostOps0 _ (Proc.devRef .tc main_v1) = _
  after_results
  rfl

/-- The ternary matrix, as the first region finds it: as launched. -/
theorem in1_arg1 (c : Dev nD) : in1 m c main_arg1 = m ((c : Thread nD τ).loc main_arg1) :=
  (StableHlo.after_of_writes_sub hostOps0 _ hostOps0_writes (r := main_arg1) (by decide)).trans rfl

/-- The weight, as the second region finds it: the effective weight of the ternary matrix and the scales by row. -/
theorem in2_v2 (c : Dev nD) :
    in2 m c main_v2 = Cert.Spec.weight2 (m ((c : Thread nD τ).loc main_arg1))
      (shapeCast S4096x32 (m ((c : Thread nD τ).loc main_arg2) : Vec Ideal S131072 .f32) shapeCasts_S131072_S4096x32) :=
  (at2_arr m c 2).trans ((weight_array (in1 m) c).trans (by rw [in1_arg1, in1_v1]))

/-- THE RESULT: the last boundary holds, at the program's result, the specification of the arguments as launched. -/
theorem at4_result (c : Dev nD) :
    at4 m c (Proc.devRef .tc main_v4)
      = Cert.Spec.result (m ((c : Thread nD τ).loc main_arg0)) (m ((c : Thread nD τ).loc main_arg1)) (m ((c : Thread nD τ).loc main_arg2)) := by
  have h3 : at3 m c (Proc.devRef .tc main_v3)
      = Cert.Spec.rowsTimes (shapeCast S8192x4096 (m ((c : Thread nD τ).loc main_arg0) : Vec Ideal S4x2048x4096 .f32) shapeCasts_S4x2048x4096_S8192x4096)
          (Cert.Spec.weight2 (m ((c : Thread nD τ).loc main_arg1))
            (shapeCast S4096x32 (m ((c : Thread nD τ).loc main_arg2) : Vec Ideal S131072 .f32) shapeCasts_S131072_S4096x32)) :=
    (at3_arr m c 2).trans ((product_array (in2 m) c).trans (by rw [in2_v0, in2_v2]))
  refine Eq.trans ?_ (composed_eq_result _ _ _)
  show StableHlo.after hostOps2 _ (Proc.devRef .tc main_v4) = _
  after_results
  rw [h3]
  rfl

end Cert.KernelIdeal.HandValue

end
-- ==== Proof.RefValue.lean ====
/-
  The reference computes the specification: its weight is the integer times the scale of the entry's group of 128 in
  the row-major flattening, and its result the contraction of the activations' last axis with the weight's.
-/
import proofs.«131810_j15058155339890_1_alg».proof.Proof.Gen.ReferenceIdeal.Run
import proofs.«131810_j15058155339890_1_alg».proof.Proof.Gen.ReferenceIdeal.Read
import proofs.«131810_j15058155339890_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.HandValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-- The contraction reads the activations along their last axis: row (b, s), column k. -/
private theorem lhs_at (b : Fin 4) (s : Fin 2048) (o k : Fin 4096) :
    Read.lidx_main_v6 (ix3 b s o) k = ix3 b s k :=
  funext fun a => match a with
    | ⟨0, _⟩ => rfl
    | ⟨1, _⟩ => rfl
    | ⟨2, _⟩ => rfl

/-- The contraction reads the weight along its last axis: row o, column k. -/
private theorem rhs_at (b : Fin 4) (s : Fin 2048) (o k : Fin 4096) :
    Read.ridx_main_v6 (ix3 b s o) k = ix2 o k :=
  funext fun a => match a with
    | ⟨0, _⟩ => rfl
    | ⟨1, _⟩ => rfl

/-- Regrouping the 4096×4096 entries by 128 and back leaves entry (o, k) where it was: its flat position is
    o·4096 + k either way. -/
private theorem entry_back (o k : Fin 4096) :
    Read.idx_main_v1 (Read.idx_main_v5 (ix2 o k)) = ix2 o k :=
  funext fun a => match a with
    | ⟨0, _⟩ => Fin.ext (by
        show ((o.val * 4096 + k.val) / 128 * 128 + (o.val * 4096 + k.val) % 128) / 4096 = o.val
        have := o.isLt; have := k.isLt; omega)
    | ⟨1, _⟩ => Fin.ext (by
        show ((o.val * 4096 + k.val) / 128 * 128 + (o.val * 4096 + k.val) % 128) % 4096 = k.val
        have := o.isLt; have := k.isLt; omega)

/-- The scale that multiplies entry (o, k) is the one of its group of 128: number (o·4096 + k)/128 = o·32 + k/128. -/
private theorem scale_at (o k : Fin 4096) :
    Read.idx_main_v2 (Read.idx_main_v3 (Read.idx_main_v5 (ix2 o k))) = ix1 (Cert.Spec.grp o k) :=
  funext fun a => match a with
    | ⟨0, _⟩ => Fin.ext (by
        show (o.val * 4096 + k.val) / 128 = o.val * 32 + k.val / 128
        have := o.isLt; have := k.isLt; omega)

/-- The reference's weight at (o, k): the integer there, read signed, times the scale of its group. -/
private theorem weight_at (x1 : (⟨S4096x4096, .i32⟩ : BufTy).Contents (Elt Ideal))
    (x2 : (⟨S131072, .f32⟩ : BufTy).Contents (Elt Ideal)) (o k : Fin 4096) :
    Read.val_main_v5 (F := Ideal) x1 x2 (ix2 o k) = Cert.Spec.weight x1 x2 (ix2 o k) := by
  rw [Read.val_main_v5_apply, Read.val_main_v4_apply, Read.val_main_v1_apply, Read.val_main_v0_apply,
    Read.val_main_v3_apply, Read.val_main_v2_apply, entry_back, scale_at]
  rfl

/-- The reference's result, as its run states it, is the specification of its three arguments. -/
theorem reference_is_result (x0 : (⟨S4x2048x4096, .f32⟩ : BufTy).Contents (Elt Ideal))
    (x1 : (⟨S4096x4096, .i32⟩ : BufTy).Contents (Elt Ideal)) (x2 : (⟨S131072, .f32⟩ : BufTy).Contents (Elt Ideal)) :
    Cert.ReferenceIdeal.Read.val_main_v6 (F := Ideal) x0 x1 x2 = Cert.Spec.result x0 x1 x2 := by
  funext j
  obtain ⟨b, s, o, rfl⟩ : ∃ (b : Fin 4) (s : Fin 2048) (o : Fin 4096), j = ix3 b s o := ⟨j 0, j 1, j 2, eq_ix3 j⟩
  rw [Read.val_main_v6_apply]
  show _ = ∑ k : Fin 4096, x0 (ix3 b s k) * Cert.Spec.weight x1 x2 (ix2 o k)
  refine Finset.sum_congr rfl fun k _ => ?_
  rw [lhs_at, rhs_at, weight_at]

end Cert.ReferenceIdeal.HandValue

end
-- ==== Proof.lean ====
/-
  The certificate. Kernel: the ternary weight dequantised tile by tile (integer × the scale of its column group, the
  scales laid out 4096 × 32), then x2 @ wᵀ on rows flattened to 8192, each 1024 × 1024 tile of the result accumulated
  over four stretches of 1024 columns in scratch memory and written back after the fourth. Reference: the weight
  from the flat scales by groups of 128 consecutive entries, then one contraction over all 4096 columns.

  Both are the specification (Proof/Spec.lean): group (o·4096 + i)/128 of the flattening is column group i/128 of row
  o, and four partial sums added in order from zero are the whole sum — over the extended reals too, where addition
  is still commutative and associative; no other law is used, so the inputs' finiteness is never opened.

  The two programs with kernel regions have their frames by running them: the program is four items in a row (the
  arguments' reshapes, the dequantisation region, the product region, the result's reshape), the contents of every
  unscoped buffer between two items are named, and no item writes an argument. The word-level program's modules are
  the exact-instance ones under the other program's name: the two printed programs are the same text.
-/
import proofs.«131810_j15058155339890_1_alg».proof.Defs
import proofs.«131810_j15058155339890_1_alg».proof.Proof.Gen.Kernel
import proofs.«131810_j15058155339890_1_alg».proof.Proof.Gen.KernelIdeal
import proofs.«131810_j15058155339890_1_alg».proof.Proof.Gen.ReferenceIdeal
import proofs.«131810_j15058155339890_1_alg».proof.Proof.Gen.Pre_finite_inputs
import proofs.«131810_j15058155339890_1_alg».proof.Proof.Gen.ReferenceIdeal.Run
import proofs.«131810_j15058155339890_1_alg».proof.Proof.Gen.ReferenceIdeal.Read
import proofs.«131810_j15058155339890_1_alg».proof.Proof.Kernel.Ends
import proofs.«131810_j15058155339890_1_alg».proof.Proof.KernelIdeal.Ends
import proofs.«131810_j15058155339890_1_alg».proof.Proof.Bridge
import proofs.«131810_j15058155339890_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_word : Cert.frame_Kernel (hKernel := Cert.Kernel.Gen.facts) (hPre_finite_inputs := Cert.Pre_finite_inputs.Gen.facts) :=
  fun m ρ _ => Cert.Kernel.Hand.frame (F := Bits) m ρ

/-- So does the program read at the exact instance. -/
theorem frame_exact : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three arguments both programs end with the specification of those arguments
    at their result. -/
theorem same_result : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨(h c _ (Cert.KernelIdeal.Hand.mem_ucRefs Cert.KernelIdeal.main_v4 (by decide))).trans (Cert.KernelIdeal.HandValue.at4_result m c),
       (h c _ (Cert.KernelIdeal.Hand.mem_ucRefs Cert.KernelIdeal.main_arg0 (by decide))).trans (Cert.KernelIdeal.Hand.at4_arg0 m c),
       (h c _ (Cert.KernelIdeal.Hand.mem_ucRefs Cert.KernelIdeal.main_arg1 (by decide))).trans (Cert.KernelIdeal.Hand.at4_arg1 m c),
       (h c _ (Cert.KernelIdeal.Hand.mem_ucRefs Cert.KernelIdeal.main_arg2 (by decide))).trans (Cert.KernelIdeal.Hand.at4_arg2 m c)⟩)
      (Cert.KernelIdeal.Hand.run (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v6_eq _ _ _).trans
      ((Cert.ReferenceIdeal.HandValue.reference_is_result _ _ _).trans ?_))
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_word, frame_exact, frame_reference, trivial, same_result⟩

end Cert.Proof

end
